-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S3x96x96 : Shape := ⟨3, ![3, 96, 96]⟩
abbrev S3x96 : Shape := ⟨2, ![3, 96]⟩
abbrev S96x10 : Shape := ⟨2, ![96, 10]⟩
abbrev S10 : Shape := ⟨1, ![10]⟩
abbrev S_ : Shape := ⟨0, ![]⟩
abbrev S1x800000 : Shape := ⟨2, ![1, 800000]⟩
abbrev S800000 : Shape := ⟨1, ![800000]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S3x96x96 : S_.BroadcastsInDim S3x96x96 (![] : Fin 0 → Fin S3x96x96.rank)
  reducesTo_S3x96x96_S_d0_1_2 : S3x96x96.ReducesTo [0, 1, 2] S_
  bcast_S_S3x96 : S_.BroadcastsInDim S3x96 (![] : Fin 0 → Fin S3x96.rank)
  reducesTo_S3x96_S_d0_1 : S3x96.ReducesTo [0, 1] S_
  bcast_S_S96x10 : S_.BroadcastsInDim S96x10 (![] : Fin 0 → Fin S96x10.rank)
  reducesTo_S96x10_S_d0_1 : S96x10.ReducesTo [0, 1] S_
  bcast_S_S10 : S_.BroadcastsInDim S10 (![] : Fin 0 → Fin S10.rank)
  reducesTo_S10_S_d0 : S10.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v33 : IVec S_ 1) : IVec S_ 1 :=
  let main_v34 : IVec S1x800000 32 := (extractStridedSlice S1x800000 ![0, 0] · slices_S2x800000_S1x800000_0_0) main_arg1
  let main_v35 : IVec S800000 32 := shapeCast S800000 main_v34 shapeCasts_S1x800000_S800000
  let main_c_12 : IVec S_ 32 := constantI S_ 32 4294917296#32
  let main_v36 : IVec S800000 32 := broadcastInDim S800000 ![] bcast_S_S800000 main_c_12
  let main_v37 : IVec S800000 1 := cmpi .sge main_v35 main_v36
  let main_c_13 : IVec S_ 1 := constantI S_ 1 1#1
  let main_v38 : IVec S_ 1 := (fun x v => Host.reduce IntOp.andi x v reducesTo_S800000_S_d0 h_S_) main_v37 main_c_13
  let main_v39 : IVec S_ 1 := andi main_v33 main_v38
  let main_v40 : IVec S1x800000 32 := (extractStridedSlice S1x800000 ![0, 0] · slices_S2x800000_S1x800000_0_0) main_arg1
  let main_v41 : IVec S800000 32 := shapeCast S800000 main_v40 shapeCasts_S1x800000_S800000
  let main_c_14 : IVec S_ 32 := constantI S_ 32 50000#32
  let main_v42 : IVec S800000 32 := broadcastInDim S800000 ![] bcast_S_S800000 main_c_14
  let main_v43 : IVec S800000 1 := cmpi .slt main_v41 main_v42
  let main_c_15 : IVec S_ 1 := constantI S_ 1 1#1
  let main_v44 : IVec S_ 1 := (fun x v => Host.reduce IntOp.andi x v reducesTo_S800000_S_d0 h_S_) main_v43 main_c_15
  let main_v45 : IVec S_ 1 := andi main_v39 main_v44
  main_v45

def fn_part1 {F : FTy → Type} [FloatOps F] (main_arg1 : IVec S2x800000 32) (main_arg5 : FVec F S3x96 .f32) (main_arg6 : FVec F S96x10 .f32) (main_arg7 : FVec F S10 .f32) (main_v13 : IVec S_ 1) (main_v16 : IVec S3x96x96 1) : IVec S_ 1 :=
  let main_c_5 : IVec S_ 1 := constantI S_ 1 1#1
  let main_v17 : IVec S_ 1 := (fun x v => Host.reduce IntOp.andi x v reducesTo_S3x96x96_S_d0_1_2 h_S_) main_v16 main_c_5
  let main_v18 : IVec S_ 1 := andi main_v13 main_v17
  let main_v19 : FVec F S3x96 .f32 := Host.absf main_arg5
  let main_cst_6 : FVec F S_ .f32 := constant S_ .f32 0x7F800000#32
  let main_v20 : FVec F S3x96 .f32 := broadcastInDim S3x96 ![] bcast_S_S3x96 main_cst_6
  let main_v21 : IVec S3x96 1 := cmpf .olt main_v19 main_v20
  let main_c_7 : IVec S_ 1 := constantI S_ 1 1#1
  let main_v22 : IVec S_ 1 := (fun x v => Host.reduce IntOp.andi x v reducesTo_S3x96_S_d0_1 h_S_) main_v21 main_c_7
  let main_v23 : IVec S_ 1 := andi main_v18 main_v22
  let main_v24 : FVec F S96x10 .f32 := Host.absf main_arg6
  let main_cst_8 : FVec F S_ .f32 := constant S_ .f32 0x7F800000#32
  let main_v25 : FVec F S96x10 .f32 := broadcastInDim S96x10 ![] bcast_S_S96x10 main_cst_8
  let main_v26 : IVec S96x10 1 := cmpf .olt main_v24 main_v25
  let main_c_9 : IVec S_ 1 := constantI S_ 1 1#1
  let main_v27 : IVec S_ 1 := (fun x v => Host.reduce IntOp.andi x v reducesTo_S96x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg1 main_v33

def fn {F : FTy → Type} [FloatOps F] (main_arg0 : FVec F S50000x96 .f32) (main_arg1 : IVec S2x800000 32) (main_arg2 : FVec F S3x96x96 .f32) (main_arg3 : FVec F S3x96 .f32) (main_arg4 : FVec F S3x96x96 .f32) (main_arg5 : FVec F S3x96 .f32) (main_arg6 : FVec F S96x10 .f32) (main_arg7 : FVec F S10 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S3x96x96 .f32 := Host.absf main_arg2
  let main_cst_0 : FVec F S_ .f32 := constant S_ .f32 0x7F800000#32
  let main_v5 : FVec F S3x96x96 .f32 := broadcastInDim S3x96x96 ![] bcast_S_S3x96x96 main_cst_0
  let main_v6 : IVec S3x96x96 1 := cmpf .olt main_v4 main_v5
  let main_c_1 : IVec S_ 1 := constantI S_ 1 1#1
  let main_v7 : IVec S_ 1 := (fun x v => Host.reduce IntOp.andi x v reducesTo_S3x96x96_S_d0_1_2 h_S_) main_v6 main_c_1
  let main_v8 : IVec S_ 1 := andi main_v3 main_v7
  let main_v9 : FVec F S3x96 .f32 := Host.absf main_arg3
  let main_cst_2 : FVec F S_ .f32 := constant S_ .f32 0x7F800000#32
  let main_v10 : FVec F S3x96 .f32 := broadcastInDim S3x96 ![] bcast_S_S3x96 main_cst_2
  let main_v11 : IVec S3x96 1 := cmpf .olt main_v9 main_v10
  let main_c_3 : IVec S_ 1 := constantI S_ 1 1#1
  let main_v12 : IVec S_ 1 := (fun x v => Host.reduce IntOp.andi x v reducesTo_S3x96_S_d0_1 h_S_) main_v11 main_c_3
  let main_v13 : IVec S_ 1 := andi main_v8 main_v12
  let main_v14 : FVec F S3x96x96 .f32 := Host.absf main_arg4
  let main_cst_4 : FVec F S_ .f32 := constant S_ .f32 0x7F800000#32
  let main_v15 : FVec F S3x96x96 .f32 := broadcastInDim S3x96x96 ![] bcast_S_S3x96x96 main_cst_4
  let main_v16 : IVec S3x96x96 1 := cmpf .olt main_v14 main_v15
  fn_part1 (F := F) main_arg1 main_arg5 main_arg6 main_arg7 main_v13 main_v16
-- ==== Kernel.lean ====
abbrev S50000x96 : Shape := ⟨2, ![50000, 96]⟩
abbrev S2x800000 : Shape := ⟨2, ![2, 800000]⟩
abbrev S3x96x96 : Shape := ⟨3, ![3, 96, 96]⟩
abbrev S3x96 : Shape := ⟨2, ![3, 96]⟩
abbrev S96x10 : Shape := ⟨2, ![96, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x96 : Shape := ⟨2, ![800000, 96]⟩
abbrev S1x96x96 : Shape := ⟨3, ![1, 96, 96]⟩
abbrev S96x96 : Shape := ⟨2, ![96, 96]⟩
abbrev S1x96 : Shape := ⟨2, ![1, 96]⟩
abbrev S96 : Shape := ⟨1, ![96]⟩
abbrev S2000x96 : Shape := ⟨2, ![2000, 96]⟩
abbrev S1x10 : Shape := ⟨2, ![1, 10]⟩
abbrev S50000x10 : Shape := ⟨2, ![50000, 10]⟩
abbrev S2000x10 : Shape := ⟨2, ![2000, 10]⟩

abbrev nBuf : Space → Nat
  | .hbm => 130
  | .vmem => 26
  | .smem => 0
  | _ => 0

abbrev hbmTy0_0 (i : Nat) : BufTy := match i % 128 with
  | 0 => ⟨S50000x96, .f32⟩
  | 1 => ⟨S2x800000, .i32⟩
  | 2 => ⟨S3x96x96, .f32⟩
  | 3 => ⟨S3x96, .f32⟩
  | 4 => ⟨S3x96x96, .f32⟩
  | 5 => ⟨S3x96, .f32⟩
  | 6 => ⟨S96x10, .f32⟩
  | 7 => ⟨S10, .f32⟩
  | 8 => ⟨S1x800000, .i32⟩
  | 9 => ⟨S800000, .i32⟩
  | 10 => ⟨S1x800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S1, .i32⟩
  | 21 => ⟨S_, .i32⟩
  | 22 => ⟨S800000x1, .i32⟩
  | 23 => ⟨S800000x1, .i1⟩
  | 24 => ⟨S1x1, .i32⟩
  | 25 => ⟨S800000x1, .i32⟩
  | 26 => ⟨S800000x1, .i1⟩
  | 27 => ⟨S800000x1, .i1⟩
  | 28 => ⟨S_, .i1⟩
  | 29 => ⟨S800000, .i1⟩
  | 30 => ⟨S800000x96, .f32⟩
  | 31 => ⟨S800000x96, .i1⟩
  | 32 => ⟨S_, .f32⟩
  | 33 => ⟨S800000x96, .f32⟩
  | 34 => ⟨S800000x96, .f32⟩
  | 35 => ⟨S_, .f32⟩
  | 36 => ⟨S50000x96, .f32⟩
  | 37 => ⟨S800000x1, .i32⟩
  | 38 => ⟨S50000x96, .f32⟩
  | 39 => ⟨S50000x96, .f32⟩
  | 40 => ⟨S1x96x96, .f32⟩
  | 41 => ⟨S96x96, .f32⟩
  | 42 => ⟨S1x96, .f32⟩
  | 43 => ⟨S96, .f32⟩
  | 44 => ⟨S1x96x96, .f32⟩
  | 45 => ⟨S96x96, .f32⟩
  | 46 => ⟨S1x96, .f32⟩
  | 47 => ⟨S96, .f32⟩
  | 48 => ⟨S1x96, .f32⟩
  | 49 => ⟨S1x96, .f32⟩
  | 50 => ⟨S50000x96, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S1, .i32⟩
  | 60 => ⟨S_, .i32⟩
  | 61 => ⟨S800000x1, .i32⟩
  | 62 => ⟨S800000x1, .i1⟩
  | 63 => ⟨S1x1, .i32⟩
  | 64 => ⟨S800000x1, .i32⟩
  | 65 => ⟨S800000x1, .i1⟩
  | 66 => ⟨S800000x1, .i1⟩
  | 67 => ⟨S_, .i1⟩
  | 68 => ⟨S800000, .i1⟩
  | 69 => ⟨S800000x96, .f32⟩
  | 70 => ⟨S800000x96, .i1⟩
  | 71 => ⟨S_, .f32⟩
  | 72 => ⟨S800000x96, .f32⟩
  | 73 => ⟨S800000x96, .f32⟩
  | 74 => ⟨S_, .f32⟩
  | 75 => ⟨S50000x96, .f32⟩
  | 76 => ⟨S800000x1, .i32⟩
  | 77 => ⟨S50000x96, .f32⟩
  | 78 => ⟨S50000x96, .f32⟩
  | 79 => ⟨S1x96x96, .f32⟩
  | 80 => ⟨S96x96, .f32⟩
  | 81 => ⟨S1x96, .f32⟩
  | 82 => ⟨S96, .f32⟩
  | 83 => ⟨S1x96x96, .f32⟩
  | 84 => ⟨S96x96, .f32⟩
  | 85 => ⟨S1x96, .f32⟩
  | 86 => ⟨S96, .f32⟩
  | 87 => ⟨S1x96, .f32⟩
  | 88 => ⟨S1x96, .f32⟩
  | 89 => ⟨S50000x96, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S1, .i32⟩
  | 99 => ⟨S_, .i32⟩
  | 100 => ⟨S800000x1, .i32⟩
  | 101 => ⟨S800000x1, .i1⟩
  | 102 => ⟨S1x1, .i32⟩
  | 103 => ⟨S800000x1, .i32⟩
  | 104 => ⟨S800000x1, .i1⟩
  | 105 => ⟨S800000x1, .i1⟩
  | 106 => ⟨S_, .i1⟩
  | 107 => ⟨S800000, .i1⟩
  | 108 => ⟨S800000x96, .f32⟩
  | 109 => ⟨S800000x96, .i1⟩
  | 110 => ⟨S_, .f32⟩
  | 111 => ⟨S800000x96, .f32⟩
  | 112 => ⟨S800000x96, .f32⟩
  | 113 => ⟨S_, .f32⟩
  | 114 => ⟨S50000x96, .f32⟩
  | 115 => ⟨S800000x1, .i32⟩
  | 116 => ⟨S50000x96, .f32⟩
  | 117 => ⟨S50000x96, .f32⟩
  | 118 => ⟨S1x96x96, .f32⟩
  | 119 => ⟨S96x96, .f32⟩
  | 120 => ⟨S1x96, .f32⟩
  | 121 => ⟨S96, .f32⟩
  | 122 => ⟨S1x96x96, .f32⟩
  | 123 => ⟨S96x96, .f32⟩
  | 124 => ⟨S1x96, .f32⟩
  | 125 => ⟨S96, .f32⟩
  | 126 => ⟨S1x96, .f32⟩
  | 127 => ⟨S1x96, .f32⟩
  | _ => ⟨S50000x96, .f32⟩

abbrev hbmTy0_1 (i : Nat) : BufTy := match i % 128 with
  | 0 => ⟨S1x10, .f32⟩
  | 1 => ⟨S50000x10, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S2000x96, .f32⟩
  | .local _ .vmem, ⟨1, _⟩ => ⟨S2000x96, .f32⟩
  | .local _ .vmem, ⟨2, _⟩ => ⟨S96x96, .f32⟩
  | .local _ .vmem, ⟨3, _⟩ => ⟨S1x96, .f32⟩
  | .local _ .vmem, ⟨4, _⟩ => ⟨S96x96, .f32⟩
  | .local _ .vmem, ⟨5, _⟩ => ⟨S1x96, .f32⟩
  | .local _ .vmem, ⟨6, _⟩ => ⟨S2000x96, .f32⟩
  | .local _ .vmem, ⟨7, _⟩ => ⟨S2000x96, .f32⟩
  | .local _ .vmem, ⟨8, _⟩ => ⟨S2000x96, .f32⟩
  | .local _ .vmem, ⟨9, _⟩ => ⟨S2000x96, .f32⟩
  | .local _ .vmem, ⟨10, _⟩ => ⟨S96x96, .f32⟩
  | .local _ .vmem, ⟨11, _⟩ => ⟨S1x96, .f32⟩
  | .local _ .vmem, ⟨12, _⟩ => ⟨S96x96, .f32⟩
  | .local _ .vmem, ⟨13, _⟩ => ⟨S1x96, .f32⟩
  | .local _ .vmem, ⟨14, _⟩ => ⟨S2000x96, .f32⟩
  | .local _ .vmem, ⟨15, _⟩ => ⟨S2000x96, .f32⟩
  | .local _ .vmem, ⟨16, _⟩ => ⟨S2000x96, .f32⟩
  | .local _ .vmem, ⟨17, _⟩ => ⟨S2000x96, .f32⟩
  | .local _ .vmem, ⟨18, _⟩ => ⟨S96x96, .f32⟩
  | .local _ .vmem, ⟨19, _⟩ => ⟨S1x96, .f32⟩
  | .local _ .vmem, ⟨20, _⟩ => ⟨S96x96, .f32⟩
  | .local _ .vmem, ⟨21, _⟩ => ⟨S1x96, .f32⟩
  | .local _ .vmem, ⟨22, _⟩ => ⟨S96x10, .f32⟩
  | .local _ .vmem, ⟨23, _⟩ => ⟨S1x10, .f32⟩
  | .local _ .vmem, ⟨24, _⟩ => ⟨S2000x10, .f32⟩
  | .local _ .vmem, ⟨25, _⟩ => ⟨S2000x10, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v20 : Ref sig .tc := ⟨.hbm, 73, rfl⟩
abbrev main_cst_0 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_call2_c : Ref sig .tc := ⟨.hbm, 90, rfl⟩
abbrev main_call2_v0 : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_c_1 : Ref sig .tc := ⟨.hbm, 98, rfl⟩
abbrev main_call2_c_2 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_3 : Ref sig .tc := ⟨.hbm, 106, rfl⟩
abbrev main_call2_v12 : Ref sig .tc := ⟨.hbm, 107, rfl⟩
abbrev main_call2_v13 : Ref sig .tc := ⟨.hbm, 108, rfl⟩
abbrev main_call2_v14 : Ref sig .tc := ⟨.hbm, 109, rfl⟩
abbrev main_call2_cst : Ref sig .tc := ⟨.hbm, 110, rfl⟩
abbrev main_call2_v15 : Ref sig .tc := ⟨.hbm, 111, rfl⟩
abbrev main_v36 : Ref sig .tc := ⟨.hbm, 112, rfl⟩
abbrev main_cst_1 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S96x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S96x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x10 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x96_0 : S800000.BroadcastsInDim S800000x96 (![0] : Fin 1 → Fin S800000x96.rank)
  bcast_S_S800000x96 : S_.BroadcastsInDim S800000x96 (![] : Fin 0 → Fin S800000x96.rank)
  bcast_S_S50000x96 : S_.BroadcastsInDim S50000x96 (![] : Fin 0 → Fin S50000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  shapeCasts_S96_S1x96 : S96.ShapeCasts S1x96
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  shapeCasts_S10_S1x10 : S10.ShapeCasts S1x10
  inb_S96x10_S96x10_0_0 : ∀ a, (![0, 0] : Fin 2 → Nat) a + S96x10.size a ≤ S96x10.size a
  h_S96x10 : 0 < S96x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  inb_S2000x10_S2000x10_0_0 : ∀ a, (![0, 0] : Fin 2 → Nat) a + S2000x10.size a ≤ S2000x10.size a
  h_S2000x10 : 0 < S2000x10.numel
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x96_S2000x96_1_0_0_1_n_n_wf : DotDims.WF S2000x96 S96x96 S2000x96 [1] [0] [0] [1] [] []
  dot_S2000x96_S96x10_S2000x10_1_0_0_1_n_n_wf : DotDims.WF S2000x96 S96x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x96.size a ≤ S50000x96.size a
  hwx0_5 : ∀ i : grid0.Coords, EltTy.bits .f32 = 32 ∨ (Rect.block (s := S50000x96) S2000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x96.size a ≤ S96x96.size a
  hwx1_3 : ∀ i : grid1.Coords, EltTy.bits .f32 = 32 ∨ (Rect.block (s := S96x96) S96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x96.size a ≤ S50000x96.size a
  hwx1_5 : ∀ i : grid1.Coords, EltTy.bits .f32 = 32 ∨ (Rect.block (s := S50000x96) S2000x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x96.size a ≤ S96x96.size a
  hwx2_3 : ∀ i : grid2.Coords, EltTy.bits .f32 = 32 ∨ (Rect.block (s := S96x96) S96x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S96x10.size a ≤ S96x10.size a
  hwx2_5 : ∀ i : grid2.Coords, EltTy.bits .f32 = 32 ∨ (Rect.block (s := S96x10) S96x10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x10.size a ≤ S1x10.size a
  hwx2_6 : ∀ i : grid2.Coords, EltTy.bits .f32 = 32 ∨ (Rect.block (s := S1x10) S1x10.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x10.size a ≤ S50000x10.size a
  hwx2_7 : ∀ i : grid2.Coords, EltTy.bits .f32 = 32 ∨ (Rect.block (s := S50000x10) S2000x10.size (cc2_transform_7 i) (hinb2_7 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def dot_S2000x96_S96x10_S2000x10_1_0_0_1_n_n : DotDims S2000x96 S96x10 S2000x10 where
  lhsContracting := [1]
  rhsContracting := [0]
  lhsNonContracting := [0]
  rhsNonContracting := [1]
  lhsBatch := []
  rhsBatch := []
  wf := dot_S2000x96_S96x10_S2000x10_1_0_0_1_n_n_wf

abbrev win0_0 : Pipeline.Window sig grid0 :=
  Pipeline.Window.ofSpec (Memref.whole main_v8) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S96x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S96x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S1x10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v52) S2000x10.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S3x96x96 : Shape := ⟨3, ![3, 96, 96]⟩
abbrev S3x96 : Shape := ⟨2, ![3, 96]⟩
abbrev S96x10 : Shape := ⟨2, ![96, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96x96 : Shape := ⟨3, ![1, 96, 96]⟩
abbrev S96x96 : Shape := ⟨2, ![96, 96]⟩
abbrev S1x96 : Shape := ⟨2, ![1, 96]⟩
abbrev S96 : Shape := ⟨1, ![96]⟩
abbrev S50000x10 : Shape := ⟨2, ![50000, 10]⟩
abbrev S1x10 : Shape := ⟨2, ![1, 10]⟩

abbrev nBuf : Space → Nat
  | .hbm => 124
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S3x96x96, .f32⟩
  | .hbm, ⟨3, _⟩ => ⟨S3x96, .f32⟩
  | .hbm, ⟨4, _⟩ => ⟨S3x96x96, .f32⟩
  | .hbm, ⟨5, _⟩ => ⟨S3x96, .f32⟩
  | .hbm, ⟨6, _⟩ => ⟨S96x10, .f32⟩
  | .hbm, ⟨7, _⟩ => ⟨S10, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S50000x96, .f32⟩
  | .hbm, ⟨26, _⟩ => ⟨S1x96x96, .f32⟩
  | .hbm, ⟨27, _⟩ => ⟨S96x96, .f32⟩
  | .hbm, ⟨28, _⟩ => ⟨S50000x96, .f32⟩
  | .hbm, ⟨29, _⟩ => ⟨S1x96, .f32⟩
  | .hbm, ⟨30, _⟩ => ⟨S96, .f32⟩
  | .hbm, ⟨31, _⟩ => ⟨S1x96, .f32⟩
  | .hbm, ⟨32, _⟩ => ⟨S50000x96, .f32⟩
  | .hbm, ⟨33, _⟩ => ⟨S50000x96, .f32⟩
  | .hbm, ⟨34, _⟩ => ⟨S_, .f32⟩
  | .hbm, ⟨35, _⟩ => ⟨S50000x96, .f32⟩
  | .hbm, ⟨36, _⟩ => ⟨S50000x96, .f32⟩
  | .hbm, ⟨37, _⟩ => ⟨S1x96x96, .f32⟩
  | .hbm, ⟨38, _⟩ => ⟨S96x96, .f32⟩
  | .hbm, ⟨39, _⟩ => ⟨S50000x96, .f32⟩
  | .hbm, ⟨40, _⟩ => ⟨S1x96, .f32⟩
  | .hbm, ⟨41, _⟩ => ⟨S96, .f32⟩
  | .hbm, ⟨42, _⟩ => ⟨S1x96, .f32⟩
  | .hbm, ⟨43, _⟩ => ⟨S50000x96, .f32⟩
  | .hbm, ⟨44, _⟩ => ⟨S50000x96, .f32⟩
  | .hbm, ⟨45, _⟩ => ⟨S_, .f32⟩
  | .hbm, ⟨46, _⟩ => ⟨S50000x96, .f32⟩
  | .hbm, ⟨47, _⟩ => ⟨S50000x96, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x96, .f32⟩
  | .hbm, ⟨57, _⟩ => ⟨S_, .f32⟩
  | .hbm, ⟨58, _⟩ => ⟨S50000x96, .f32⟩
  | .hbm, ⟨59, _⟩ => ⟨S800000x1, .i32⟩
  | .hbm, ⟨60, _⟩ => ⟨S50000x96, .f32⟩
  | .hbm, ⟨61, _⟩ => ⟨S50000x96, .f32⟩
  | .hbm, ⟨62, _⟩ => ⟨S1x96x96, .f32⟩
  | .hbm, ⟨63, _⟩ => ⟨S96x96, .f32⟩
  | .hbm, ⟨64, _⟩ => ⟨S50000x96, .f32⟩
  | .hbm, ⟨65, _⟩ => ⟨S1x96, .f32⟩
  | .hbm, ⟨66, _⟩ => ⟨S96, .f32⟩
  | .hbm, ⟨67, _⟩ => ⟨S1x96, .f32⟩
  | .hbm, ⟨68, _⟩ => ⟨S50000x96, .f32⟩
  | .hbm, ⟨69, _⟩ => ⟨S50000x96, .f32⟩
  | .hbm, ⟨70, _⟩ => ⟨S_, .f32⟩
  | .hbm, ⟨71, _⟩ => ⟨S50000x96, .f32⟩
  | .hbm, ⟨72, _⟩ => ⟨S50000x96, .f32⟩
  | .hbm, ⟨73, _⟩ => ⟨S1x96x96, .f32⟩
  | .hbm, ⟨74, _⟩ => ⟨S96x96, .f32⟩
  | .hbm, ⟨75, _⟩ => ⟨S50000x96, .f32⟩
  | .hbm, ⟨76, _⟩ => ⟨S1x96, .f32⟩
  | .hbm, ⟨77, _⟩ => ⟨S96, .f32⟩
  | .hbm, ⟨78, _⟩ => ⟨S1x96, .f32⟩
  | .hbm, ⟨79, _⟩ => ⟨S50000x96, .f32⟩
  | .hbm, ⟨80, _⟩ => ⟨S50000x96, .f32⟩
  | .hbm, ⟨81, _⟩ => ⟨S_, .f32⟩
  | .hbm, ⟨82, _⟩ => ⟨S50000x96, .f32⟩
  | .hbm, ⟨83, _⟩ => ⟨S50000x96, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x96, .f32⟩
  | .hbm, ⟨93, _⟩ => ⟨S_, .f32⟩
  | .hbm, ⟨94, _⟩ => ⟨S50000x96, .f32⟩
  | .hbm, ⟨95, _⟩ => ⟨S800000x1, .i32⟩
  | .hbm, ⟨96, _⟩ => ⟨S50000x96, .f32⟩
  | .hbm, ⟨97, _⟩ => ⟨S50000x96, .f32⟩
  | .hbm, ⟨98, _⟩ => ⟨S1x96x96, .f32⟩
  | .hbm, ⟨99, _⟩ => ⟨S96x96, .f32⟩
  | .hbm, ⟨100, _⟩ => ⟨S50000x96, .f32⟩
  | .hbm, ⟨101, _⟩ => ⟨S1x96, .f32⟩
  | .hbm, ⟨102, _⟩ => ⟨S96, .f32⟩
  | .hbm, ⟨103, _⟩ => ⟨S1x96, .f32⟩
  | .hbm, ⟨104, _⟩ => ⟨S50000x96, .f32⟩
  | .hbm, ⟨105, _⟩ => ⟨S50000x96, .f32⟩
  | .hbm, ⟨106, _⟩ => ⟨S_, .f32⟩
  | .hbm, ⟨107, _⟩ => ⟨S50000x96, .f32⟩
  | .hbm, ⟨108, _⟩ => ⟨S50000x96, .f32⟩
  | .hbm, ⟨109, _⟩ => ⟨S1x96x96, .f32⟩
  | .hbm, ⟨110, _⟩ => ⟨S96x96, .f32⟩
  | .hbm, ⟨111, _⟩ => ⟨S50000x96, .f32⟩
  | .hbm, ⟨112, _⟩ => ⟨S1x96, .f32⟩
  | .hbm, ⟨113, _⟩ => ⟨S96, .f32⟩
  | .hbm, ⟨114, _⟩ => ⟨S1x96, .f32⟩
  | .hbm, ⟨115, _⟩ => ⟨S50000x96, .f32⟩
  | .hbm, ⟨116, _⟩ => ⟨S50000x96, .f32⟩
  | .hbm, ⟨117, _⟩ => ⟨S_, .f32⟩
  | .hbm, ⟨118, _⟩ => ⟨S50000x96, .f32⟩
  | .hbm, ⟨119, _⟩ => ⟨S50000x96, .f32⟩
  | .hbm, ⟨120, _⟩ => ⟨S50000x10, .f32⟩
  | .hbm, ⟨121, _⟩ => ⟨S1x10, .f32⟩
  | .hbm, ⟨122, _⟩ => ⟨S50000x10, .f32⟩
  | .hbm, ⟨123, _⟩ => ⟨S50000x10, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_c_3 : Ref sig .tc := ⟨.hbm, 48, rfl⟩
abbrev main_v35 : Ref sig .tc := ⟨.hbm, 49, rfl⟩
abbrev main_v36 : Ref sig .tc := ⟨.hbm, 50, rfl⟩
abbrev main_c_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_7 : Ref sig .tc := ⟨.hbm, 81, rfl⟩
abbrev main_v64 : Ref sig .tc := ⟨.hbm, 82, rfl⟩
abbrev main_v65 : Ref sig .tc := ⟨.hbm, 83, rfl⟩
abbrev main_c_8 : Ref sig .tc := ⟨.hbm, 84, rfl⟩
abbrev main_v66 : Ref sig .tc := ⟨.hbm, 85, rfl⟩
abbrev main_v67 : Ref sig .tc := ⟨.hbm, 86, rfl⟩
abbrev main_c_9 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_10 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_11 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_12 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x96_S96x10_S50000x10_1_0_0_1_n_n_wf : DotDims.WF S50000x96 S96x10 S50000x10 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x10_S50000x10_1_0_0_1_n_n : DotDims S50000x96 S96x10 S50000x10 where
  lhsContracting := [1]
  rhsContracting := [0]
  lhsNonContracting := [0]
  rhsNonContracting := [1]
  lhsBatch := []
  rhsBatch := []
  wf := dot_S50000x96_S96x10_S50000x10_1_0_0_1_n_n_wf

class Facts : Prop extends Facts₀ where

variable [Facts]
-- ==== Proof.LibDense.lean ====
/-
  The plain matrix product of two rank-2 arrays of extended reals, and the two places a program meets it: a
  contraction's sum over its one contracted axis, for dimension numbers that contract the left operand's columns
  with the right operand's rows and have no batch axis, re-indexed by that axis's coordinate; and, at the ideal
  values, a matmul into a zero accumulator whose operands pass through a narrower float format, and a host
  dot_general.
-/
import Idealize.ShloMosaic.PureOps.Ideal
import Idealize.ShloMosaic.PureOps.Ideal.Laws
import Idealize.ShloMosaic.Lib.ValueIdx

noncomputable section

open scoped BigOperators

namespace Cert.Lib

open Idealize.ShloMosaic Idealize.ShloMosaic.ValueIdx

/-- The matrix product x · w of an M × K by a K × N array: entry (p, q) is the sum over k of x (p, k) · w (k, q). -/
def dense {M K N : Nat} (x : (⟨2, ![M, K]⟩ : Shape).Idx → EReal) (w : (⟨2, ![K, N]⟩ : Shape).Idx → EReal) :
    (⟨2, ![M, N]⟩ : Shape).Idx → EReal :=
  fun j => ∑ k : Fin K, x (ValueIdx.ix2 (j 0) k) * w (ValueIdx.ix2 k (j 1))

/-- The product read at an entry. -/
theorem dense_apply {M K N : Nat} (x : (⟨2, ![M, K]⟩ : Shape).Idx → EReal) (w : (⟨2, ![K, N]⟩ : Shape).Idx → EReal)
    (j : (⟨2, ![M, N]⟩ : Shape).Idx) :
    dense x w j = ∑ k : Fin K, x (ValueIdx.ix2 (j 0) k) * w (ValueIdx.ix2 k (j 1)) := rfl

/-- A row of the product depends on that row of the left factor alone: if row p' of x' is row p of x, and w' is w,
    then entry (p', q) of x' · w' is entry (p, q) of x · w. -/
theorem dense_row {M M' K N : Nat} (x : (⟨2, ![M, K]⟩ : Shape).Idx → EReal) (x' : (⟨2, ![M', K]⟩ : Shape).Idx → EReal)
    (w w' : (⟨2, ![K, N]⟩ : Shape).Idx → EReal) (p : Fin M) (p' : Fin M')
    (hx : ∀ k : Fin K, x' (ValueIdx.ix2 p' k) = x (ValueIdx.ix2 p k)) (hw : ∀ i, w' i = w i) (q : Fin N) :
    dense x' w' (ValueIdx.ix2 p' q) = dense x w (ValueIdx.ix2 p q) := by
  show ∑ k : Fin K, x' (ValueIdx.ix2 p' k) * w' (ValueIdx.ix2 k q) = ∑ k : Fin K, x (ValueIdx.ix2 p k) * w (ValueIdx.ix2 k q)
  exact Finset.sum_congr rfl fun k _ => by rw [hx k, hw]

section Plain

variable {M K N : Nat} (d : DotDims ⟨2, ![M, K]⟩ ⟨2, ![K, N]⟩ ⟨2, ![M, N]⟩)

/-- Dimension numbers that contract one axis have a contraction shape of rank one. -/
theorem contr_rank (hlc : d.lhsContracting = [1]) : d.contr.rank = 1 := by
  rw [d.rank_contr, hlc]; rfl

/-- When the contracted axis is the left operand's second, the contraction shape's one extent is K. -/
theorem contr_size (hlc : d.lhsContracting = [1]) :
    d.contr.size ⟨0, by rw [contr_rank d hlc]; exact Nat.one_pos⟩ = K := by
  have hp : 0 < d.lhsContracting.length := by rw [hlc]; exact Nat.one_pos
  have h1 : d.lhsContracting[0]'hp = 1 := by simp [hlc]
  rw [d.size_contr 0 hp, h1]
  rfl

/-- Reading two coordinates of a rank-2 index at equal axis numbers gives equal values. -/
theorem coord_congr {n : Fin 2 → Nat} (j : (⟨2, n⟩ : Shape).Idx) (p q : Nat) (hp : p < 2) (hq : q < 2) (h : p = q) :
    (j ⟨p, hp⟩).val = (j ⟨q, hq⟩).val := by subst h; rfl

/-- The left operand's row is the result's row: axis 0 of the left operand is its one free axis, the first of the
    result's axes. -/
theorem lhsIdx_0 (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (show ¬(0 : Fin (⟨2, ![M, K]⟩ : Shape).rank) ∈ d.lhsBatch by rw [hlb]; exact List.not_mem_nil),
    dif_pos (show (0 : Fin (⟨2, ![M, K]⟩ : Shape).rank) ∈ d.lhsNonContracting by rw [hln]; exact List.mem_singleton.mpr rfl)]
  simp only [Fin.val_cast]
  exact coord_congr j _ _ _ _ (by simp [hlb, hln])

/-- The left operand's column is the contracted coordinate: axis 1 of the left operand is the contracted one. -/
theorem lhsIdx_1 (hlc : d.lhsContracting = [1]) (j : (⟨2, ![M, N]⟩ : Shape).Idx) (q : d.contr.Idx) :
    (d.lhsIdx j q 1).val = (q ⟨0, by rw [contr_rank d hlc]; exact Nat.one_pos⟩).val :=
  d.lhsIdx_val_of_single hlc j q

/-- The right operand's row is the contracted coordinate: axis 0 of the right operand is the contracted one. -/
theorem rhsIdx_0 (hlc : d.lhsContracting = [1]) (hrc : d.rhsContracting = [0]) (j : (⟨2, ![M, N]⟩ : Shape).Idx)
    (q : d.contr.Idx) : (d.rhsIdx j q 0).val = (q ⟨0, by rw [contr_rank d hlc]; exact Nat.one_pos⟩).val :=
  d.rhsIdx_val_of_single hrc j q

/-- The right operand's column is the result's column: axis 1 of the right operand is its one free axis, which
    comes after the left operand's one free axis among the result's axes. -/
theorem rhsIdx_1 (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (show ¬(1 : Fin (⟨2, ![K, N]⟩ : Shape).rank) ∈ d.rhsBatch by rw [hrb]; exact List.not_mem_nil),
    dif_pos (show (1 : Fin (⟨2, ![K, N]⟩ : Shape).rank) ∈ d.rhsNonContracting by rw [hrn]; exact List.mem_singleton.mpr rfl)]
  simp only [Fin.val_cast]
  exact coord_congr j _ _ _ _ (by simp [hlb, hln, hrn])

/-- THE CONTRACTION IS THE MATRIX PRODUCT. For dimension numbers contracting the left operand's columns with the
    right operand's rows, one free axis each and no batch axis, the sum over the contraction index of the operands'
    products at the dot's operand indices is the matrix product's entry: re-index the sum by the contracted axis's
    coordinate; the operand indices at result entry (p, q) and coordinate k are then (p, k) and (k, q). -/
theorem sum_contr_eq_dense (hlc : d.lhsContracting = [1]) (hrc : d.rhsContracting = [0])
    (hln : d.lhsNonContracting = [0]) (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = dense l r j := by
  rw [dense_apply, ← Equiv.sum_comp (ValueIdx.contrEquiv1 d K (contr_rank d hlc) (contr_size d hlc)).symm]
  refine Finset.sum_congr rfl fun k _ => ?_
  have hk := ValueIdx.contrEquiv1_symm_val d K (contr_rank d hlc) (contr_size d hlc) k
  have el : d.lhsIdx j ((ValueIdx.contrEquiv1 d K (contr_rank d hlc) (contr_size d hlc)).symm k)
      = (ValueIdx.ix2 (j 0) k : (⟨2, ![M, K]⟩ : Shape).Idx) := funext fun a => Fin.ext (by
    match a with
    | ⟨0, _⟩ => exact lhsIdx_0 d hln hlb _ _
    | ⟨1, _⟩ => exact (lhsIdx_1 d hlc _ _).trans hk)
  have er : d.rhsIdx j ((ValueIdx.contrEquiv1 d K (contr_rank d hlc) (contr_size d hlc)).symm k)
      = (ValueIdx.ix2 k (j 1) : (⟨2, ![K, N]⟩ : Shape).Idx) := funext fun a => Fin.ext (by
    match a with
    | ⟨0, _⟩ => exact (rhsIdx_0 d hlc hrc _ _).trans hk
    | ⟨1, _⟩ => exact rhsIdx_1 d hln hrn hlb hrb _ _)
  rw [el, er]

/-- At the ideal values a matmul into the zero accumulator, its two f32 operands first passed through bf16 (the
    identity on extended reals), is the matrix product of the operands. -/
theorem matmul_truncf_eq_dense (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32)
    (h₁ : FTy.bf16.bits < FTy.f32.bits) (h₂ : FTy.bf16.bits < FTy.f32.bits) :
    FloatOps.matmul d prec (truncf .bf16 l h₁ : FVec Ideal ⟨2, ![M, K]⟩ .bf16)
        (truncf .bf16 r h₂ : FVec Ideal ⟨2, ![K, N]⟩ .bf16) (constant (F := Ideal) ⟨2, ![M, N]⟩ .f32 0x00000000#32)
      = dense l r := by
  funext j
  rw [Ideal.matmul_constant_zero_apply]
  exact sum_contr_eq_dense d hlc hrc hln hrn hlb hrb l r j

/-- At the ideal values the host's dot_general is the matrix product of its operands, whatever the precision. -/
theorem dotGeneral_eq_dense (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32) :
    Host.dotGeneral d prec l r = dense l r := by
  funext j
  simp only [Host.dotGeneral]
  rw [Ideal.dotGeneral_apply]
  exact sum_contr_eq_dense d hlc hrc hln hrn hlb hrb l r j

end Plain

end Cert.Lib

end
-- ==== Proof.Perceptron.lean ====
/-
  The two-layer perceptron of one graph-convolution round, and the final classifier, as functions of whole arrays of
  extended reals with any number of rows: a hidden layer is relu (a · w + b) with the bias b added along every row, the
  perceptron is two hidden layers in sequence, and the classifier is h · w + b. Each row of a result depends on the
  same row of the first operand only, which is what lets a block of rows be computed apart from the rest.
-/
import proofs.«427185_j55568286876150_3_alg».proof.Proof.LibDense

noncomputable section

open scoped BigOperators

namespace Cert.Gin

open Idealize.ShloMosaic Idealize.ShloMosaic.ValueIdx Cert.Lib

/-- An M × N array of extended reals. -/
abbrev Mat (M N : Nat) : Type := (⟨2, ![M, N]⟩ : Shape).Idx → EReal

/-- relu (a · w + b): entry (p, q) is max (Σ_k a (p, k) · w (k, q) + b q) 0. -/
def hidden {M K N : Nat} (a : Mat M K) (w : Mat K N) (b : Fin N → EReal) : Mat M N :=
  fun j => max (dense a w j + b (j 1)) 0

/-- The perceptron: two hidden layers. -/
def mlp {M : Nat} (a : Mat M 96) (w1 : Mat 96 96) (b1 : Fin 96 → EReal) (w2 : Mat 96 96) (b2 : Fin 96 → EReal) :
    Mat M 96 :=
  hidden (hidden a w1 b1) w2 b2

/-- The classifier: h · w + b. -/
def logits {M : Nat} (h : Mat M 96) (w : Mat 96 10) (b : Fin 10 → EReal) : Mat M 10 :=
  fun j => dense h w j + b (j 1)

theorem hidden_apply {M K N : Nat} (a : Mat M K) (w : Mat K N) (b : Fin N → EReal) (p : Fin M) (q : Fin N) :
    hidden a w b (ix2 p q) = max (dense a w (ix2 p q) + b q) 0 := rfl

theorem logits_apply {M : Nat} (h : Mat M 96) (w : Mat 96 10) (b : Fin 10 → EReal) (p : Fin M) (q : Fin 10) :
    logits h w b (ix2 p q) = dense h w (ix2 p q) + b q := rfl

/-- Row p' of relu (a' · w + b) is row p of relu (a · w + b) when row p' of a' is row p of a. -/
theorem hidden_row {M M' K N : Nat} (a : Mat M K) (a' : Mat M' K) (w : Mat K N) (b : Fin N → EReal) (p : Fin M)
    (p' : Fin M') (ha : ∀ k : Fin K, a' (ix2 p' k) = a (ix2 p k)) (q : Fin N) :
    hidden a' w b (ix2 p' q) = hidden a w b (ix2 p q) := by
  rw [hidden_apply, hidden_apply, dense_row a a' w w p p' ha (fun _ => rfl) q]

/-- The same for the perceptron: a row of the result depends on that row of the input alone. -/
theorem mlp_row {M M' : Nat} (a : Mat M 96) (a' : Mat M' 96) (w1 : Mat 96 96) (b1 : Fin 96 → EReal) (w2 : Mat 96 96)
    (b2 : Fin 96 → EReal) (p : Fin M) (p' : Fin M') (ha : ∀ k : Fin 96, a' (ix2 p' k) = a (ix2 p k)) (q : Fin 96) :
    mlp a' w1 b1 w2 b2 (ix2 p' q) = mlp a w1 b1 w2 b2 (ix2 p q) :=
  hidden_row _ _ w2 b2 p p' (fun k => hidden_row a a' w1 b1 p p' ha k) q

/-- And for the classifier. -/
theorem logits_row {M M' : Nat} (h : Mat M 96) (h' : Mat M' 96) (w : Mat 96 10) (b : Fin 10 → EReal) (p : Fin M)
    (p' : Fin M') (hh : ∀ k : Fin 96, h' (ix2 p' k) = h (ix2 p k)) (q : Fin 10) :
    logits h' w b (ix2 p' q) = logits h w b (ix2 p q) := by
  rw [logits_apply, logits_apply, dense_row h h' w w p p' hh (fun _ => rfl) q]

end Cert.Gin

end
-- ==== Proof.Payload.lean ====
/-
  What each kernel body computes from the blocks it loads, at the ideal values: the first two kernels store the
  perceptron of their block of rows, the third stores the classifier applied to that perceptron. The weight matrices
  are loaded whole; each bias arrives as a one-row array and is added along every row of the block.
-/
import proofs.«427185_j55568286876150_3_alg».proof.Proof.Gen.KernelIdeal.Skeleton
import proofs.«427185_j55568286876150_3_alg».proof.Proof.Perceptron
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.Gin

/-- A one-row array read as its row. -/
def rowOf {N : Nat} (x : (⟨2, ![1, N]⟩ : Shape).Idx → EReal) : Fin N → EReal := fun k => x (ix2 0 k)

/-- A one-row array spread along every row of an M × N array, read at (p, q), is the row's entry q: the unit axis
    reads its only coordinate and the other axis reads the column (when N = 1 the column can only be 0). -/
theorem spread_apply {M N : Nat} (b : (⟨2, ![1, N]⟩ : Shape).Idx → EReal)
    (hb : (⟨2, ![1, N]⟩ : Shape).Broadcasts ⟨2, ![M, N]⟩) (p : Fin M) (q : Fin N) :
    broadcastTo ⟨2, ![M, N]⟩ b hb (ix2 p q) = rowOf b q := by
  refine broadcastTo_apply b hb (ix2 p q) (ix2 0 q) ?_
  intro a
  match a with
  | ⟨0, _⟩ => exact (if_pos rfl).symm
  | ⟨1, _⟩ =>
    by_cases hN : N = 1
    · have hq : q.val = 0 := by have := q.isLt; omega
      exact hq.trans (if_pos hN).symm
    · exact (if_neg hN).symm

/-- A product into the zero accumulator plus a spread one-row bias, read at (p, q), is the matrix product's entry
    plus the bias's entry q. -/
theorem affine_apply {M K N : Nat} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : FVec Ideal ⟨2, ![M, K]⟩ .f32) (w : FVec Ideal ⟨2, ![K, N]⟩ .f32) (b : FVec Ideal ⟨2, ![1, N]⟩ .f32)
    (hb : (⟨2, ![1, N]⟩ : Shape).Broadcasts ⟨2, ![M, N]⟩) (p : Fin M) (q : Fin N) :
    addf (FloatOps.matmul d none a w (constant (F := Ideal) ⟨2, ![M, N]⟩ .f32 0x00000000#32))
        (broadcastTo ⟨2, ![M, N]⟩ b hb) (ix2 p q)
      = Cert.Lib.dense a w (ix2 p q) + rowOf b q := by
  rw [addf_apply, Ideal.matmul_constant_zero_apply,
    Cert.Lib.sum_contr_eq_dense d hlc hrc hln hrn hlb hrb a w (ix2 p q), spread_apply]

/-- The classifier layer as a whole array. -/
theorem affine_eq_logits {M : Nat} (d : DotDims ⟨2, ![M, 96]⟩ ⟨2, ![96, 10]⟩ ⟨2, ![M, 10]⟩)
    (hlc : d.lhsContracting = [1]) (hrc : d.rhsContracting = [0]) (hln : d.lhsNonContracting = [0])
    (hrn : d.rhsNonContracting = [1]) (hlb : d.lhsBatch = []) (hrb : d.rhsBatch = [])
    (a : FVec Ideal ⟨2, ![M, 96]⟩ .f32) (w : FVec Ideal ⟨2, ![96, 10]⟩ .f32) (b : FVec Ideal ⟨2, ![1, 10]⟩ .f32)
    (hb : (⟨2, ![1, 10]⟩ : Shape).Broadcasts ⟨2, ![M, 10]⟩) :
    addf (FloatOps.matmul d none a w (constant (F := Ideal) ⟨2, ![M, 10]⟩ .f32 0x00000000#32))
        (broadcastTo ⟨2, ![M, 10]⟩ b hb)
      = logits a w (rowOf b) := by
  funext j
  obtain ⟨p, q, rfl⟩ : ∃ (p : Fin M) (q : Fin 10), j = ix2 p q := ⟨j 0, j 1, eq_ix2 j⟩
  rw [logits_apply]
  exact affine_apply d hlc hrc hln hrn hlb hrb a w b hb p q

/-- A hidden layer as a whole array: the greater of product-plus-bias and the zero word's value, which is 0. -/
theorem relu_affine_eq_hidden {M K N : Nat} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : FVec Ideal ⟨2, ![M, K]⟩ .f32) (w : FVec Ideal ⟨2, ![K, N]⟩ .f32) (b : FVec Ideal ⟨2, ![1, N]⟩ .f32)
    (hb : (⟨2, ![1, N]⟩ : Shape).Broadcasts ⟨2, ![M, N]⟩) :
    maximumf (addf (FloatOps.matmul d none a w (constant (F := Ideal) ⟨2, ![M, N]⟩ .f32 0x00000000#32))
        (broadcastTo ⟨2, ![M, N]⟩ b hb)) (broadcast ⟨2, ![M, N]⟩ (Scalar.ofBits (F := Ideal) .f32 0x00000000#32))
      = hidden a w (rowOf b) := by
  funext j
  obtain ⟨p, q, rfl⟩ : ∃ (p : Fin M) (q : Fin N), j = ix2 p q := ⟨j 0, j 1, eq_ix2 j⟩
  rw [hidden_apply, maximumf_apply, broadcast_apply, affine_apply d hlc hrc hln hrn hlb hrb a w b hb p q]
  show max _ (Ideal.ofBits .f32 0x00000000#32) = _
  rw [Ideal.ofBits_zero_f32]

/-- Two hidden layers in sequence are the perceptron. -/
theorem two_hidden_eq_mlp {M : Nat} (d : DotDims ⟨2, ![M, 96]⟩ ⟨2, ![96, 96]⟩ ⟨2, ![M, 96]⟩)
    (hlc : d.lhsContracting = [1]) (hrc : d.rhsContracting = [0]) (hln : d.lhsNonContracting = [0])
    (hrn : d.rhsNonContracting = [1]) (hlb : d.lhsBatch = []) (hrb : d.rhsBatch = [])
    (a : FVec Ideal ⟨2, ![M, 96]⟩ .f32) (w1 : FVec Ideal ⟨2, ![96, 96]⟩ .f32) (b1 : FVec Ideal ⟨2, ![1, 96]⟩ .f32)
    (w2 : FVec Ideal ⟨2, ![96, 96]⟩ .f32) (b2 : FVec Ideal ⟨2, ![1, 96]⟩ .f32)
    (hb : (⟨2, ![1, 96]⟩ : Shape).Broadcasts ⟨2, ![M, 96]⟩) :
    maximumf (addf (FloatOps.matmul d none
          (maximumf (addf (FloatOps.matmul d none a w1 (constant (F := Ideal) ⟨2, ![M, 96]⟩ .f32 0x00000000#32))
            (broadcastTo ⟨2, ![M, 96]⟩ b1 hb)) (broadcast ⟨2, ![M, 96]⟩ (Scalar.ofBits (F := Ideal) .f32 0x00000000#32)))
          w2 (constant (F := Ideal) ⟨2, ![M, 96]⟩ .f32 0x00000000#32))
        (broadcastTo ⟨2, ![M, 96]⟩ b2 hb)) (broadcast ⟨2, ![M, 96]⟩ (Scalar.ofBits (F := Ideal) .f32 0x00000000#32))
      = mlp a w1 (rowOf b1) w2 (rowOf b2) :=
  (relu_affine_eq_hidden d hlc hrc hln hrn hlb hrb _ w2 b2 hb).trans
    (congrArg (fun h => hidden h w2 (rowOf b2)) (relu_affine_eq_hidden d hlc hrc hln hrn hlb hrb a w1 b1 hb))

/-- The first kernel's stored value is the perceptron of its 2000-row block. -/
theorem k0_pay1_eq (x0 : Vec Ideal S2000x96 .f32) (x1 : Vec Ideal S96x96 .f32) (x2 : Vec Ideal S1x96 .f32)
    (x3 : Vec Ideal S96x96 .f32) (x4 : Vec Ideal S1x96 .f32) :
    k0_pay1 (F := Ideal) x0 x1 x2 x3 x4 = mlp (M := 2000) x0 x1 (rowOf x2) x3 (rowOf x4) := by
  unfold k0_pay1
  simp only [shapeCast_self]
  exact two_hidden_eq_mlp dot_S2000x96_S96x96_S2000x96_1_0_0_1_n_n rfl rfl rfl rfl rfl rfl x0 x1 x2 x3 x4 _

/-- The second kernel's likewise. -/
theorem k1_pay1_eq (x0 : Vec Ideal S2000x96 .f32) (x1 : Vec Ideal S96x96 .f32) (x2 : Vec Ideal S1x96 .f32)
    (x3 : Vec Ideal S96x96 .f32) (x4 : Vec Ideal S1x96 .f32) :
    k1_pay1 (F := Ideal) x0 x1 x2 x3 x4 = mlp (M := 2000) x0 x1 (rowOf x2) x3 (rowOf x4) := by
  unfold k1_pay1
  simp only [shapeCast_self]
  exact two_hidden_eq_mlp dot_S2000x96_S96x96_S2000x96_1_0_0_1_n_n rfl rfl rfl rfl rfl rfl x0 x1 x2 x3 x4 _

/-- The third kernel's stored value is the classifier of the perceptron of its block. -/
theorem k2_pay1_eq (x0 : Vec Ideal S2000x96 .f32) (x1 : Vec Ideal S96x96 .f32) (x2 : Vec Ideal S1x96 .f32)
    (x3 : Vec Ideal S96x96 .f32) (x4 : Vec Ideal S1x96 .f32) (x5 : Vec Ideal S96x10 .f32) (x6 : Vec Ideal S1x10 .f32) :
    k2_pay1 (F := Ideal) x0 x1 x2 x3 x4 x5 x6
      = logits (M := 2000) (mlp (M := 2000) x0 x1 (rowOf x2) x3 (rowOf x4)) x5 (rowOf x6) := by
  unfold k2_pay1
  simp only [shapeCast_self]
  exact (affine_eq_logits dot_S2000x96_S96x10_S2000x10_1_0_0_1_n_n rfl rfl rfl rfl rfl rfl _ x5 x6 _).trans
    (congrArg (fun h => logits h x5 (rowOf x6))
      (two_hidden_eq_mlp dot_S2000x96_S96x96_S2000x96_1_0_0_1_n_n rfl rfl rfl rfl rfl rfl x0 x1 x2 x3 x4 _))

end Cert.KernelIdeal.Payload

end
-- ==== Proof.Region0.lean ====
/-
  The first round's perceptron, from blocks to the whole array. The grid has 25 points; point t works on rows
  2000·t … 2000·t + 1999 of the aggregated features, with both weight matrices and both bias rows whole, and writes
  the same rows of the output. Since a row of the perceptron depends on that row of its input alone, what point t
  writes is rows 2000·t … of the perceptron of the whole array, and the 25 blocks tile the 50000 rows.
-/
import proofs.«427185_j55568286876150_3_alg».proof.Proof.Gen.KernelIdeal.Frame
import proofs.«427185_j55568286876150_3_alg».proof.Proof.Payload
import proofs.«427185_j55568286876150_3_alg».proof.Proof.Perceptron
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Payload Cert.Gin

variable (V : (c : Dev nD) → (b : Ref sig .tc) → Buf (Elt Ideal) ((c : Thread nD τ).loc b))

theorem hz : (![0, 0] : Fin 2 → Nat) = fun _ => 0 := funext fun a => by fin_cases a <;> rfl

/-- What the region leaves in its output array: the perceptron of the five arrays it reads. -/
abbrev G (a0 : S50000x96.Idx → Elt Ideal .f32) (a1 : S96x96.Idx → Elt Ideal .f32) (a2 : S1x96.Idx → Elt Ideal .f32)
    (a3 : S96x96.Idx → Elt Ideal .f32) (a4 : S1x96.Idx → Elt Ideal .f32) : S50000x96.Idx → Elt Ideal .f32 :=
  mlp (M := 50000) a0 a1 (rowOf a2) a3 (rowOf a4)

/-- The index maps over the grid: the row-block windows sit at block (t, 0), the whole-array windows at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem flushed_eq (c : Dev nD) (t : Fin cfg0.N) :
    (dat0 V c).flushed 5 t = ((cfg0.win 5).blk t).view.read (Elt Ideal)
      (G (V c main_v8) (V c main_v10) (V c main_v17) (V c main_v14) (V c main_v18)) := by
  show (cfg0.win 5).cut (grid0.coords t) ((dat0 V c).after 5 t) = _
  rw [after0_5]
  unfold out0_5
  rw [View.canon_unit_zero hz]
  simp only [View.ld_unit_zero (S := S2000x96) hz, View.ld_unit_zero (S := S96x96) hz, View.ld_unit_zero (S := S1x96) hz]
  rw [k0_pay1_eq]
  funext j
  show mlp (M := 2000) (iblk0 V c 0 t) (iblk0 V c 1 t) (rowOf (iblk0 V c 2 t)) (iblk0 V c 3 t) (rowOf (iblk0 V c 4 t)) j
    = G (V c main_v8) (V c main_v10) (V c main_v17) (V c main_v14) (V c main_v18) (((cfg0.win 5).blk t).view.emb j)
  have ht : t.val < 25 := lt_of_lt_of_eq t.isLt N_0
  obtain ⟨e00, e01, e10, e11, e20, e21, e30, e31, e40, e41, e50, e51⟩ := idx_facts t
  -- the four windows that take their whole array at every point hold that array
  have h1 : iblk0 V c 1 t = V c main_v10 := by
    funext y
    show V c main_v10 (((cfg0.win 1).blk t).view.emb y) = V c main_v10 y
    congr 1; funext a; apply Fin.ext
    match a with
    | ⟨0, _⟩ => show win0_1.index t (0 : Fin 2) * 96 + 1 * (y 0).val = (y 0).val; omega
    | ⟨1, _⟩ => show win0_1.index t (1 : Fin 2) * 96 + 1 * (y 1).val = (y 1).val; omega
  have h2 : iblk0 V c 2 t = V c main_v17 := by
    funext y
    show V c main_v17 (((cfg0.win 2).blk t).view.emb y) = V c main_v17 y
    congr 1; funext a; apply Fin.ext
    match a with
    | ⟨0, _⟩ => show win0_2.index t (0 : Fin 2) * 1 + 1 * (y 0).val = (y 0).val; omega
    | ⟨1, _⟩ => show win0_2.index t (1 : Fin 2) * 96 + 1 * (y 1).val = (y 1).val; omega
  have h3 : iblk0 V c 3 t = V c main_v14 := by
    funext y
    show V c main_v14 (((cfg0.win 3).blk t).view.emb y) = V c main_v14 y
    congr 1; funext a; apply Fin.ext
    match a with
    | ⟨0, _⟩ => show win0_3.index t (0 : Fin 2) * 96 + 1 * (y 0).val = (y 0).val; omega
    | ⟨1, _⟩ => show win0_3.index t (1 : Fin 2) * 96 + 1 * (y 1).val = (y 1).val; omega
  have h4 : iblk0 V c 4 t = V c main_v18 := by
    funext y
    show V c main_v18 (((cfg0.win 4).blk t).view.emb y) = V c main_v18 y
    congr 1; funext a; apply Fin.ext
    match a with
    | ⟨0, _⟩ => show win0_4.index t (0 : Fin 2) * 1 + 1 * (y 0).val = (y 0).val; omega
    | ⟨1, _⟩ => show win0_4.index t (1 : Fin 2) * 96 + 1 * (y 1).val = (y 1).val; omega
  rw [h1, h2, h3, h4]
  obtain ⟨p, q, rfl⟩ : ∃ (p : Fin 2000) (q : Fin 96), j = ix2 p q := ⟨j 0, j 1, eq_ix2 j⟩
  -- row p of point t's block is row 2000·t + p of the array
  have hemb : ((cfg0.win 5).blk t).view.emb (ix2 p q)
      = (ix2 (⟨t.val * 2000 + p.val, by omega⟩ : Fin 50000) q : S50000x96.Idx) := by
    funext a; apply Fin.ext
    match a with
    | ⟨0, _⟩ => show win0_5.index t (0 : Fin 2) * 2000 + 1 * p.val = t.val * 2000 + p.val; omega
    | ⟨1, _⟩ => show win0_5.index t (1 : Fin 2) * 96 + 1 * q.val = q.val; omega
  rw [hemb]
  refine mlp_row (V c main_v8) (iblk0 V c 0 t) (V c main_v10) (rowOf (V c main_v17)) (V c main_v14) (rowOf (V c main_v18))
    (⟨t.val * 2000 + p.val, by omega⟩ : Fin 50000) p (fun k => ?_) q
  show V c main_v8 (((cfg0.win 0).blk t).view.emb (ix2 p k)) = V c main_v8 (ix2 (⟨t.val * 2000 + p.val, by omega⟩ : Fin 50000) k)
  congr 1; funext a; apply Fin.ext
  match a with
  | ⟨0, _⟩ => show win0_0.index t (0 : Fin 2) * 2000 + 1 * p.val = t.val * 2000 + p.val; omega
  | ⟨1, _⟩ => show win0_0.index t (1 : Fin 2) * 96 + 1 * k.val = k.val; omega

/-- An index of the output array lies in point t's block iff each coordinate lies in the block's range on its axis. -/
theorem mem_blk (t : Fin cfg0.N) (i : S50000x96.Idx) :
    i ∈ ((cfg0.win 5).blk t).view.set ↔ ∀ a : Fin 2, win0_5.index t a * S2000x96.size a ≤ (i a).val
      ∧ (i a).val < win0_5.index t a * S2000x96.size a + S2000x96.size a := by
  show i ∈ ((View.whole main_v19).slice (win0_5.rect t)).set ↔ _
  rw [View.set_slice_whole, Rect.mem_set_unit]
  exact Iff.rfl

/-- The 25 blocks tile the array: row r lies in the block of point r / 2000. -/
theorem cover (i : S50000x96.Idx) :
    ∃ t : Fin cfg0.N, (cfg0.win 5).flush t = true ∧ i ∈ ((cfg0.win 5).blk t).view.set := by
  have hi0 : (i 0).val < 50000 := (i 0).isLt
  have hi1 : (i 1).val < 96 := (i 1).isLt
  have hN : cfg0.N = 25 := N_0
  have hlt : (i 0).val / 2000 < cfg0.N := by rw [hN]; omega
  obtain ⟨-, -, -, -, -, -, -, -, -, -, e50, e51⟩ := idx_facts ⟨(i 0).val / 2000, hlt⟩
  refine ⟨⟨(i 0).val / 2000, hlt⟩, flush0_5 _, ?_⟩
  rw [mem_blk]
  intro a
  match a with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, hlt⟩ (1 : Fin 2) * 96 ≤ (i 1).val
      ∧ (i 1).val < win0_5.index ⟨(i 0).val / 2000, hlt⟩ (1 : Fin 2) * 96 + 96
    rw [e51]; omega

/-- THE OUTPUT ARRAY after the region: the perceptron of the arrays the region read. -/
theorem final (c : Dev nD) :
    (dat0 V c).arrAt 5 cfg0.N = G (V c main_v8) (V c main_v10) (V c main_v17) (V c main_v14) (V c main_v18) :=
  (dat0 V c).arrAt_eq_of_cover 5 _ (fun t _ => flushed_eq V c t) cover

end Cert.KernelIdeal.Region0

end
-- ==== Proof.Region1.lean ====
/-
  The second round's perceptron, from blocks to the whole array. The grid has 25 points; point t works on rows
  2000·t … 2000·t + 1999 of the aggregated features, with both weight matrices and both bias rows whole, and writes
  the same rows of the output. Since a row of the perceptron depends on that row of its input alone, what point t
  writes is rows 2000·t … of the perceptron of the whole array, and the 25 blocks tile the 50000 rows.
-/
import proofs.«427185_j55568286876150_3_alg».proof.Proof.Gen.KernelIdeal.Frame
import proofs.«427185_j55568286876150_3_alg».proof.Proof.Payload
import proofs.«427185_j55568286876150_3_alg».proof.Proof.Perceptron
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Payload Cert.Gin

variable (V : (c : Dev nD) → (b : Ref sig .tc) → Buf (Elt Ideal) ((c : Thread nD τ).loc b))

theorem hz : (![0, 0] : Fin 2 → Nat) = fun _ => 0 := funext fun a => by fin_cases a <;> rfl

/-- What the region leaves in its output array: the perceptron of the five arrays it reads. -/
abbrev G (a0 : S50000x96.Idx → Elt Ideal .f32) (a1 : S96x96.Idx → Elt Ideal .f32) (a2 : S1x96.Idx → Elt Ideal .f32)
    (a3 : S96x96.Idx → Elt Ideal .f32) (a4 : S1x96.Idx → Elt Ideal .f32) : S50000x96.Idx → Elt Ideal .f32 :=
  mlp (M := 50000) a0 a1 (rowOf a2) a3 (rowOf a4)

/-- The index maps over the grid: the row-block windows sit at block (t, 0), the whole-array windows at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem flushed_eq (c : Dev nD) (t : Fin cfg1.N) :
    (dat1 V c).flushed 5 t = ((cfg1.win 5).blk t).view.read (Elt Ideal)
      (G (V c main_v24) (V c main_v26) (V c main_v33) (V c main_v30) (V c main_v34)) := by
  show (cfg1.win 5).cut (grid1.coords t) ((dat1 V c).after 5 t) = _
  rw [after1_5]
  unfold out1_5
  rw [View.canon_unit_zero hz]
  simp only [View.ld_unit_zero (S := S2000x96) hz, View.ld_unit_zero (S := S96x96) hz, View.ld_unit_zero (S := S1x96) hz]
  rw [k1_pay1_eq]
  funext j
  show mlp (M := 2000) (iblk1 V c 0 t) (iblk1 V c 1 t) (rowOf (iblk1 V c 2 t)) (iblk1 V c 3 t) (rowOf (iblk1 V c 4 t)) j
    = G (V c main_v24) (V c main_v26) (V c main_v33) (V c main_v30) (V c main_v34) (((cfg1.win 5).blk t).view.emb j)
  have ht : t.val < 25 := lt_of_lt_of_eq t.isLt N_1
  obtain ⟨e00, e01, e10, e11, e20, e21, e30, e31, e40, e41, e50, e51⟩ := idx_facts t
  -- the four windows that take their whole array at every point hold that array
  have h1 : iblk1 V c 1 t = V c main_v26 := by
    funext y
    show V c main_v26 (((cfg1.win 1).blk t).view.emb y) = V c main_v26 y
    congr 1; funext a; apply Fin.ext
    match a with
    | ⟨0, _⟩ => show win1_1.index t (0 : Fin 2) * 96 + 1 * (y 0).val = (y 0).val; omega
    | ⟨1, _⟩ => show win1_1.index t (1 : Fin 2) * 96 + 1 * (y 1).val = (y 1).val; omega
  have h2 : iblk1 V c 2 t = V c main_v33 := by
    funext y
    show V c main_v33 (((cfg1.win 2).blk t).view.emb y) = V c main_v33 y
    congr 1; funext a; apply Fin.ext
    match a with
    | ⟨0, _⟩ => show win1_2.index t (0 : Fin 2) * 1 + 1 * (y 0).val = (y 0).val; omega
    | ⟨1, _⟩ => show win1_2.index t (1 : Fin 2) * 96 + 1 * (y 1).val = (y 1).val; omega
  have h3 : iblk1 V c 3 t = V c main_v30 := by
    funext y
    show V c main_v30 (((cfg1.win 3).blk t).view.emb y) = V c main_v30 y
    congr 1; funext a; apply Fin.ext
    match a with
    | ⟨0, _⟩ => show win1_3.index t (0 : Fin 2) * 96 + 1 * (y 0).val = (y 0).val; omega
    | ⟨1, _⟩ => show win1_3.index t (1 : Fin 2) * 96 + 1 * (y 1).val = (y 1).val; omega
  have h4 : iblk1 V c 4 t = V c main_v34 := by
    funext y
    show V c main_v34 (((cfg1.win 4).blk t).view.emb y) = V c main_v34 y
    congr 1; funext a; apply Fin.ext
    match a with
    | ⟨0, _⟩ => show win1_4.index t (0 : Fin 2) * 1 + 1 * (y 0).val = (y 0).val; omega
    | ⟨1, _⟩ => show win1_4.index t (1 : Fin 2) * 96 + 1 * (y 1).val = (y 1).val; omega
  rw [h1, h2, h3, h4]
  obtain ⟨p, q, rfl⟩ : ∃ (p : Fin 2000) (q : Fin 96), j = ix2 p q := ⟨j 0, j 1, eq_ix2 j⟩
  -- row p of point t's block is row 2000·t + p of the array
  have hemb : ((cfg1.win 5).blk t).view.emb (ix2 p q)
      = (ix2 (⟨t.val * 2000 + p.val, by omega⟩ : Fin 50000) q : S50000x96.Idx) := by
    funext a; apply Fin.ext
    match a with
    | ⟨0, _⟩ => show win1_5.index t (0 : Fin 2) * 2000 + 1 * p.val = t.val * 2000 + p.val; omega
    | ⟨1, _⟩ => show win1_5.index t (1 : Fin 2) * 96 + 1 * q.val = q.val; omega
  rw [hemb]
  refine mlp_row (V c main_v24) (iblk1 V c 0 t) (V c main_v26) (rowOf (V c main_v33)) (V c main_v30) (rowOf (V c main_v34))
    (⟨t.val * 2000 + p.val, by omega⟩ : Fin 50000) p (fun k => ?_) q
  show V c main_v24 (((cfg1.win 0).blk t).view.emb (ix2 p k)) = V c main_v24 (ix2 (⟨t.val * 2000 + p.val, by omega⟩ : Fin 50000) k)
  congr 1; funext a; apply Fin.ext
  match a with
  | ⟨0, _⟩ => show win1_0.index t (0 : Fin 2) * 2000 + 1 * p.val = t.val * 2000 + p.val; omega
  | ⟨1, _⟩ => show win1_0.index t (1 : Fin 2) * 96 + 1 * k.val = k.val; omega

/-- An index of the output array lies in point t's block iff each coordinate lies in the block's range on its axis. -/
theorem mem_blk (t : Fin cfg1.N) (i : S50000x96.Idx) :
    i ∈ ((cfg1.win 5).blk t).view.set ↔ ∀ a : Fin 2, win1_5.index t a * S2000x96.size a ≤ (i a).val
      ∧ (i a).val < win1_5.index t a * S2000x96.size a + S2000x96.size a := by
  show i ∈ ((View.whole main_v35).slice (win1_5.rect t)).set ↔ _
  rw [View.set_slice_whole, Rect.mem_set_unit]
  exact Iff.rfl

/-- The 25 blocks tile the array: row r lies in the block of point r / 2000. -/
theorem cover (i : S50000x96.Idx) :
    ∃ t : Fin cfg1.N, (cfg1.win 5).flush t = true ∧ i ∈ ((cfg1.win 5).blk t).view.set := by
  have hi0 : (i 0).val < 50000 := (i 0).isLt
  have hi1 : (i 1).val < 96 := (i 1).isLt
  have hN : cfg1.N = 25 := N_1
  have hlt : (i 0).val / 2000 < cfg1.N := by rw [hN]; omega
  obtain ⟨-, -, -, -, -, -, -, -, -, -, e50, e51⟩ := idx_facts ⟨(i 0).val / 2000, hlt⟩
  refine ⟨⟨(i 0).val / 2000, hlt⟩, flush1_5 _, ?_⟩
  rw [mem_blk]
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, hlt⟩ (1 : Fin 2) * 96 ≤ (i 1).val
      ∧ (i 1).val < win1_5.index ⟨(i 0).val / 2000, hlt⟩ (1 : Fin 2) * 96 + 96
    rw [e51]; omega

/-- THE OUTPUT ARRAY after the region: the perceptron of the arrays the region read. -/
theorem final (c : Dev nD) :
    (dat1 V c).arrAt 5 cfg1.N = G (V c main_v24) (V c main_v26) (V c main_v33) (V c main_v30) (V c main_v34) :=
  (dat1 V c).arrAt_eq_of_cover 5 _ (fun t _ => flushed_eq V c t) cover

end Cert.KernelIdeal.Region1

end
-- ==== Proof.Region2.lean ====
/-
  The classifier of the last round's perceptron, from blocks to the whole array. The grid has 25 points; point t works
  on rows 2000·t … 2000·t + 1999 of the aggregated features, with the two weight matrices, the two bias rows, the
  classifier matrix and its bias row whole, and writes the same rows of the 10-column output. Since a row of the
  perceptron depends on that row of its input alone, and a row of the classifier on that row of the perceptron alone,
  what point t writes is rows 2000·t … of the classifier of the perceptron of the whole array, and the 25 blocks tile
  the 50000 rows.
-/
import proofs.«427185_j55568286876150_3_alg».proof.Proof.Gen.KernelIdeal.Frame
import proofs.«427185_j55568286876150_3_alg».proof.Proof.Payload
import proofs.«427185_j55568286876150_3_alg».proof.Proof.Perceptron
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Payload Cert.Gin

variable (V : (c : Dev nD) → (b : Ref sig .tc) → Buf (Elt Ideal) ((c : Thread nD τ).loc b))

theorem hz : (![0, 0] : Fin 2 → Nat) = fun _ => 0 := funext fun a => by fin_cases a <;> rfl

/-- What the region leaves in its output array: the classifier of the perceptron of the seven arrays it reads. -/
abbrev G (a0 : S50000x96.Idx → Elt Ideal .f32) (a1 : S96x96.Idx → Elt Ideal .f32) (a2 : S1x96.Idx → Elt Ideal .f32)
    (a3 : S96x96.Idx → Elt Ideal .f32) (a4 : S1x96.Idx → Elt Ideal .f32) (a5 : S96x10.Idx → Elt Ideal .f32)
    (a6 : S1x10.Idx → Elt Ideal .f32) : S50000x10.Idx → Elt Ideal .f32 :=
  logits (M := 50000) (mlp (M := 50000) a0 a1 (rowOf a2) a3 (rowOf a4)) a5 (rowOf a6)

/-- The index maps over the grid: the row-block windows sit at block (t, 0), the whole-array windows at (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

theorem flushed_eq (c : Dev nD) (t : Fin cfg2.N) :
    (dat2 V c).flushed 7 t = ((cfg2.win 7).blk t).view.read (Elt Ideal)
      (G (V c main_v40) (V c main_v42) (V c main_v49) (V c main_v46) (V c main_v50) (V c main_arg6) (V c main_v51)) := by
  show (cfg2.win 7).cut (grid2.coords t) ((dat2 V c).after 7 t) = _
  rw [after2_7]
  unfold out2_7
  rw [View.canon_unit_zero hz]
  simp only [View.ld_unit_zero (S := S2000x96) hz, View.ld_unit_zero (S := S96x96) hz, View.ld_unit_zero (S := S1x96) hz,
    View.ld_unit_zero (S := S96x10) hz, View.ld_unit_zero (S := S1x10) hz]
  rw [k2_pay1_eq]
  funext j
  show logits (M := 2000) (mlp (M := 2000) (iblk2 V c 0 t) (iblk2 V c 1 t) (rowOf (iblk2 V c 2 t)) (iblk2 V c 3 t)
        (rowOf (iblk2 V c 4 t))) (iblk2 V c 5 t) (rowOf (iblk2 V c 6 t)) j
    = G (V c main_v40) (V c main_v42) (V c main_v49) (V c main_v46) (V c main_v50) (V c main_arg6) (V c main_v51)
        (((cfg2.win 7).blk t).view.emb j)
  have ht : t.val < 25 := lt_of_lt_of_eq t.isLt N_2
  obtain ⟨e00, e01, e10, e11, e20, e21, e30, e31, e40, e41, e50, e51, e60, e61, e70, e71⟩ := idx_facts t
  -- the six windows that take their whole array at every point hold that array
  have h1 : iblk2 V c 1 t = V c main_v42 := by
    funext y
    show V c main_v42 (((cfg2.win 1).blk t).view.emb y) = V c main_v42 y
    congr 1; funext a; apply Fin.ext
    match a with
    | ⟨0, _⟩ => show win2_1.index t (0 : Fin 2) * 96 + 1 * (y 0).val = (y 0).val; omega
    | ⟨1, _⟩ => show win2_1.index t (1 : Fin 2) * 96 + 1 * (y 1).val = (y 1).val; omega
  have h2 : iblk2 V c 2 t = V c main_v49 := by
    funext y
    show V c main_v49 (((cfg2.win 2).blk t).view.emb y) = V c main_v49 y
    congr 1; funext a; apply Fin.ext
    match a with
    | ⟨0, _⟩ => show win2_2.index t (0 : Fin 2) * 1 + 1 * (y 0).val = (y 0).val; omega
    | ⟨1, _⟩ => show win2_2.index t (1 : Fin 2) * 96 + 1 * (y 1).val = (y 1).val; omega
  have h3 : iblk2 V c 3 t = V c main_v46 := by
    funext y
    show V c main_v46 (((cfg2.win 3).blk t).view.emb y) = V c main_v46 y
    congr 1; funext a; apply Fin.ext
    match a with
    | ⟨0, _⟩ => show win2_3.index t (0 : Fin 2) * 96 + 1 * (y 0).val = (y 0).val; omega
    | ⟨1, _⟩ => show win2_3.index t (1 : Fin 2) * 96 + 1 * (y 1).val = (y 1).val; omega
  have h4 : iblk2 V c 4 t = V c main_v50 := by
    funext y
    show V c main_v50 (((cfg2.win 4).blk t).view.emb y) = V c main_v50 y
    congr 1; funext a; apply Fin.ext
    match a with
    | ⟨0, _⟩ => show win2_4.index t (0 : Fin 2) * 1 + 1 * (y 0).val = (y 0).val; omega
    | ⟨1, _⟩ => show win2_4.index t (1 : Fin 2) * 96 + 1 * (y 1).val = (y 1).val; omega
  have h5 : iblk2 V c 5 t = V c main_arg6 := by
    funext y
    show V c main_arg6 (((cfg2.win 5).blk t).view.emb y) = V c main_arg6 y
    congr 1; funext a; apply Fin.ext
    match a with
    | ⟨0, _⟩ => show win2_5.index t (0 : Fin 2) * 96 + 1 * (y 0).val = (y 0).val; omega
    | ⟨1, _⟩ => show win2_5.index t (1 : Fin 2) * 10 + 1 * (y 1).val = (y 1).val; omega
  have h6 : iblk2 V c 6 t = V c main_v51 := by
    funext y
    show V c main_v51 (((cfg2.win 6).blk t).view.emb y) = V c main_v51 y
    congr 1; funext a; apply Fin.ext
    match a with
    | ⟨0, _⟩ => show win2_6.index t (0 : Fin 2) * 1 + 1 * (y 0).val = (y 0).val; omega
    | ⟨1, _⟩ => show win2_6.index t (1 : Fin 2) * 10 + 1 * (y 1).val = (y 1).val; omega
  rw [h1, h2, h3, h4, h5, h6]
  obtain ⟨p, q, rfl⟩ : ∃ (p : Fin 2000) (q : Fin 10), j = ix2 p q := ⟨j 0, j 1, eq_ix2 j⟩
  -- row p of point t's block is row 2000·t + p of the array
  have hemb : ((cfg2.win 7).blk t).view.emb (ix2 p q)
      = (ix2 (⟨t.val * 2000 + p.val, by omega⟩ : Fin 50000) q : S50000x10.Idx) := by
    funext a; apply Fin.ext
    match a with
    | ⟨0, _⟩ => show win2_7.index t (0 : Fin 2) * 2000 + 1 * p.val = t.val * 2000 + p.val; omega
    | ⟨1, _⟩ => show win2_7.index t (1 : Fin 2) * 10 + 1 * q.val = q.val; omega
  rw [hemb]
  -- a row of the classifier reads that row of the perceptron, which reads that row of the features
  refine logits_row (mlp (M := 50000) (V c main_v40) (V c main_v42) (rowOf (V c main_v49)) (V c main_v46) (rowOf (V c main_v50)))
    (mlp (M := 2000) (iblk2 V c 0 t) (V c main_v42) (rowOf (V c main_v49)) (V c main_v46) (rowOf (V c main_v50)))
    (V c main_arg6) (rowOf (V c main_v51)) (⟨t.val * 2000 + p.val, by omega⟩ : Fin 50000) p (fun k => ?_) q
  refine mlp_row (V c main_v40) (iblk2 V c 0 t) (V c main_v42) (rowOf (V c main_v49)) (V c main_v46) (rowOf (V c main_v50))
    (⟨t.val * 2000 + p.val, by omega⟩ : Fin 50000) p (fun k' => ?_) k
  show V c main_v40 (((cfg2.win 0).blk t).view.emb (ix2 p k')) = V c main_v40 (ix2 (⟨t.val * 2000 + p.val, by omega⟩ : Fin 50000) k')
  congr 1; funext a; apply Fin.ext
  match a with
  | ⟨0, _⟩ => show win2_0.index t (0 : Fin 2) * 2000 + 1 * p.val = t.val * 2000 + p.val; omega
  | ⟨1, _⟩ => show win2_0.index t (1 : Fin 2) * 96 + 1 * k'.val = k'.val; omega

/-- An index of the output array lies in point t's block iff each coordinate lies in the block's range on its axis. -/
theorem mem_blk (t : Fin cfg2.N) (i : S50000x10.Idx) :
    i ∈ ((cfg2.win 7).blk t).view.set ↔ ∀ a : Fin 2, win2_7.index t a * S2000x10.size a ≤ (i a).val
      ∧ (i a).val < win2_7.index t a * S2000x10.size a + S2000x10.size a := by
  show i ∈ ((View.whole main_v52).slice (win2_7.rect t)).set ↔ _
  rw [View.set_slice_whole, Rect.mem_set_unit]
  exact Iff.rfl

/-- The 25 blocks tile the array: row r lies in the block of point r / 2000. -/
theorem cover (i : S50000x10.Idx) :
    ∃ t : Fin cfg2.N, (cfg2.win 7).flush t = true ∧ i ∈ ((cfg2.win 7).blk t).view.set := by
  have hi0 : (i 0).val < 50000 := (i 0).isLt
  have hi1 : (i 1).val < 10 := (i 1).isLt
  have hN : cfg2.N = 25 := N_2
  have hlt : (i 0).val / 2000 < cfg2.N := by rw [hN]; omega
  obtain ⟨-, -, -, -, -, -, -, -, -, -, -, -, -, -, e70, e71⟩ := idx_facts ⟨(i 0).val / 2000, hlt⟩
  refine ⟨⟨(i 0).val / 2000, hlt⟩, flush2_7 _, ?_⟩
  rw [mem_blk]
  intro a
  match a with
  | ⟨0, _⟩ =>
    show win2_7.index ⟨(i 0).val / 2000, hlt⟩ (0 : Fin 2) * 2000 ≤ (i 0).val
      ∧ (i 0).val < win2_7.index ⟨(i 0).val / 2000, hlt⟩ (0 : Fin 2) * 2000 + 2000
    rw [e70]; show (i 0).val / 2000 * 2000 ≤ (i 0).val ∧ (i 0).val < (i 0).val / 2000 * 2000 + 2000; omega
  | ⟨1, _⟩ =>
    show win2_7.index ⟨(i 0).val / 2000, hlt⟩ (1 : Fin 2) * 10 ≤ (i 1).val
      ∧ (i 1).val < win2_7.index ⟨(i 0).val / 2000, hlt⟩ (1 : Fin 2) * 10 + 10
    rw [e71]; omega

/-- THE OUTPUT ARRAY after the region: the classifier of the perceptron of the arrays the region read. -/
theorem final (c : Dev nD) :
    (dat2 V c).arrAt 7 cfg2.N
      = G (V c main_v40) (V c main_v42) (V c main_v49) (V c main_v46) (V c main_v50) (V c main_arg6) (V c main_v51) :=
  (dat2 V c).arrAt_eq_of_cover 7 _ (fun t _ => flushed_eq V c t) cover

end Cert.KernelIdeal.Region2

end
-- ==== Proof.TakeInRange.lean ====
/-
  Reading rows of the node table through a list of row numbers. The program normalises a possibly negative row number
  as numpy does (a negative number counts from the end), then fetches the row, and replaces every row whose
  normalised number falls outside 0 … 49999 by a fill value. When every row number lies in -50000 … 49999 the
  normalised number is always a row of the table, so no row is replaced and the result is the plain fetch.
-/
import proofs.«427185_j55568286876150_3_alg».proof.KernelIdeal
import proofs.«427185_j55568286876150_3_alg».proof.Proof.Gen.KernelIdeal

noncomputable section

namespace Cert.KernelIdeal.Take

open Idealize.ShloMosaic Cert.KernelIdeal Cert.KernelIdeal.Gen

/-- Every entry, read as a signed number, is a row number of the 50000-row table or one counted from its end. -/
def InRange (s : IVec S800000 32) : Prop :=
  ∀ e : S800000.Idx, (-50000 : Int) ≤ (s e).toInt ∧ (s e).toInt < 50000

/-- The normalised row numbers as a column of start indices: s + 50000 where s is negative, s elsewhere. -/
def startCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Which rows are kept: those whose start index is at least 0 and at most 49999. -/
def keep (s : IVec S800000 32) : IVec S800000 1 :=
  Host.reduce IntOp.andi
    (andi (cmpi .sge (startCol s) (broadcastInDim S800000x1 ![] bcast_S_S800000x1 (constantI S_ 32 0#32)))
      (cmpi .sle (startCol s) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The guarded fetch: the fetched rows where kept, the fill value elsewhere. -/
def guardedTake {F : FTy → Type} [FloatOps F] (h : FVec F S50000x96 .f32) (s : IVec S800000 32) :
    FVec F S800000x96 .f32 :=
  select (broadcastInDim S800000x96 ![0] bcast_S800000_S800000x96_0 (keep s))
    (Host.gather gather_S50000x96_S800000x1_S800000x96_1_0_n_n_0_1_196 h (startCol s))
    (broadcastInDim S800000x96 ![] bcast_S_S800000x96 (constant S_ .f32 0x7FC00000#32))

/-- Folding `and` from 1 over one-bit words that are all 1 stays at 1. -/
private theorem foldl_andi_one {ι : Type} (f : ι → BitVec 1) (hf : ∀ i, f i = 1#1) :
    ∀ l : List ι, l.foldl (fun r n => IntOp.andi r (f n)) 1#1 = 1#1
  | [] => rfl
  | a :: l => by
    have h1 : IntOp.andi 1#1 (1#1 : BitVec 1) = 1#1 := by decide
    rw [List.foldl_cons, hf a, h1]
    exact foldl_andi_one f hf l

/-- One row number: adding the table length to a negative number in -50000 … -1 does not wrap around, so the
    normalised number lies in 0 … 49999; a number already in 0 … 49999 is left alone. -/
private theorem norm_range (a : BitVec 32) (h : (-50000 : Int) ≤ a.toInt ∧ a.toInt < 50000) :
    (0 : Int) ≤ (Scalar.select (IntOp.cmpi .slt a 0#32) (IntOp.addi a 50000#32) a).toInt ∧
      (Scalar.select (IntOp.cmpi .slt a 0#32) (IntOp.addi a 50000#32) a).toInt ≤ 49999 := by
  have h0 : (0#32 : BitVec 32).toInt = 0 := by decide
  have h5 : (50000#32 : BitVec 32).toInt = 50000 := by decide
  by_cases hneg : IntOp.cmpi .slt a 0#32 = 1#1
  · have hlt : a.toInt < 0 := by have := IntOp.cmpi_slt.1 hneg; rwa [h0] at this
    have hsel : Scalar.select (IntOp.cmpi .slt a 0#32) (IntOp.addi a 50000#32) a = a + 50000#32 := by
      rw [hneg]; rfl
    have hadd : (a + 50000#32).toInt = a.toInt + 50000 := by
      rw [BitVec.toInt_add, h5]
      exact Int.bmod_eq_of_le (by omega) (by omega)
    rw [hsel, hadd]; omega
  · have hge : ¬ a.toInt < 0 := fun hl => hneg (IntOp.cmpi_slt.2 (by rw [h0]; exact hl))
    have hsel : Scalar.select (IntOp.cmpi .slt a 0#32) (IntOp.addi a 50000#32) a = a := by
      unfold Scalar.select; exact if_neg hneg
    rw [hsel]; omega

/-- In range, every start index is a row of the table. -/
private theorem startCol_range (s : IVec S800000 32) (hs : InRange s) (i : S800000x1.Idx) :
    (0 : Int) ≤ (startCol s i).toInt ∧ (startCol s i).toInt ≤ 49999 :=
  norm_range _ (hs _)

/-- In range, every row is kept. -/
theorem keep_of_inRange (s : IVec S800000 32) (hs : InRange s) : keep s = fun _ => 1#1 := by
  funext e
  unfold keep Host.reduce
  refine foldl_andi_one _ (fun n => ?_) _
  generalize S800000x1.rowMajor.symm n = i
  obtain ⟨hlo, hhi⟩ := startCol_range s hs i
  have h0 : (0#32 : BitVec 32).toInt = 0 := by decide
  have h9 : (49999#32 : BitVec 32).toInt = 49999 := by decide
  show IntOp.andi (IntOp.cmpi .sge (startCol s i) 0#32) (IntOp.cmpi .sle (startCol s i) 49999#32) = 1#1
  exact IntOp.andi_eq_one.2 ⟨IntOp.cmpi_sge.2 (by rw [h0]; exact hlo), IntOp.cmpi_sle.2 (by rw [h9]; exact hhi)⟩

/-- In range, the guarded fetch is the plain fetch. -/
theorem guardedTake_eq {F : FTy → Type} [FloatOps F] (h : FVec F S50000x96 .f32) (s : IVec S800000 32)
    (hs : InRange s) :
    guardedTake h s = Host.gather gather_S50000x96_S800000x1_S800000x96_1_0_n_n_0_1_196 h (startCol s) := by
  funext j
  unfold guardedTake
  rw [keep_of_inRange s hs]
  rfl

end Cert.KernelIdeal.Take

end
-- ==== Proof.SrcRange.lean ====
/-
  What the precondition says about the edge list: every source-node number lies in -50000 … 49999, so that it names
  a row of the node table directly or, as numpy reads a negative index, counted from the end.
-/
import proofs.«427185_j55568286876150_3_alg».proof.Defs
import proofs.«427185_j55568286876150_3_alg».proof.Proof.Gen.KernelIdeal
import proofs.«427185_j55568286876150_3_alg».proof.Proof.Gen.Pre_finite_inputs
import proofs.«427185_j55568286876150_3_alg».proof.Proof.TakeInRange
import Idealize.ShloMosaic.Lib.ReduceAll

noncomputable section

namespace Cert.KernelIdeal.Take

open Idealize.ShloMosaic Idealize.SL.Sem Cert.KernelIdeal Cert.KernelIdeal.Gen

/-- The empty shape has a single index, so a reduction over every axis has a single result. -/
private instance : Subsingleton Cert.Pre_finite_inputs.S_.Idx := ⟨fun a b => funext fun d => d.elim0⟩

/-- The source row of the edge list: row 0 of the 2 × 800000 array, as a vector. -/
def srcOf (ei : IVec S2x800000 32) : IVec S800000 32 :=
  shapeCast S800000 (extractStridedSlice S1x800000 ![0, 0] ei slices_S2x800000_S1x800000_0_0) shapeCasts_S1x800000_S800000

/-- Under the precondition every source-node number is in range, on every device. -/
theorem inRange_of_pre (m : (ℓ : Loc nD τ sig) → Buf (Elt Ideal) ℓ)
    (hpre : Cert.Pre_KernelIdeal (hPre_finite_inputs := Cert.Pre_finite_inputs.Gen.facts) m) (c : Dev nD) :
    InRange (srcOf (m ((c.tc : Thread nD τ).loc main_arg1))) := by
  have h := congrFun (hpre c) (Shape.Idx.first Cert.Pre_finite_inputs.Gen.h_S_)
  dsimp only [Cert.Pre_finite_inputs.fn, Cert.Pre_finite_inputs.fn_part1, Cert.Pre_finite_inputs.fn_part2] at h
  -- the precondition is an AND of nine conjuncts; only the last two speak of the edge list
  obtain ⟨h8, hlt⟩ := IntOp.andi_eq_one.1 h
  obtain ⟨-, hge⟩ := IntOp.andi_eq_one.1 h8
  have hlo : (4294917296#32 : BitVec 32).toInt = -50000 := by decide
  have hhi : (50000#32 : BitVec 32).toInt = 50000 := by decide
  intro e
  have h1 := IntOp.cmpi_sge.1 (Host.reduce_andi_all _ _ _ _ _ hge e)
  have h2 := IntOp.cmpi_slt.1 (Host.reduce_andi_all _ _ _ _ _ hlt e)
  have h1' : (4294917296#32 : BitVec 32).toInt ≤ (srcOf (m ((c.tc : Thread nD τ).loc main_arg1)) e).toInt := h1
  have h2' : (srcOf (m ((c.tc : Thread nD τ).loc main_arg1)) e).toInt < (50000#32 : BitVec 32).toInt := h2
  rw [hlo] at h1'
  rw [hhi] at h2'
  exact ⟨h1', h2'⟩

end Cert.KernelIdeal.Take

end
-- ==== Proof.KernelHost.lean ====
/-
  What the kernel program's host lines compute between its three regions, at the ideal values: before each region the
  features are aggregated (every node's own row plus the sum of the rows fetched along its incoming edges, the fetch
  guarded as the program spells it), and that round's two weight matrices and two bias vectors are cut out of the
  stacked parameters, each bias reshaped to a one-row array. The last region also takes the classifier's matrix whole
  and its bias as a one-row array.
-/
import proofs.«427185_j55568286876150_3_alg».proof.Proof.Gen.KernelIdeal.Frame
import proofs.«427185_j55568286876150_3_alg».proof.Proof.TakeInRange
import proofs.«427185_j55568286876150_3_alg».proof.Proof.SrcRange

set_option maxRecDepth 16384

noncomputable section

namespace Cert.KernelIdeal.HostLines

open Idealize.ShloMosaic Idealize.ShloMosaic.TcCoe Idealize.SL.Sem
open Cert.KernelIdeal Cert.KernelIdeal.Gen Cert.KernelIdeal.Take
open Idealize.ShloMosaic.StableHlo

/-- The destination-node numbers as a column of scatter indices. -/
def dstCol (ei : IVec S2x800000 32) : IVec S800000x1 32 :=
  broadcastInDim S800000x1 ![0] bcast_S800000_S800000x1_0
    (shapeCast S800000 (extractStridedSlice S1x800000 ![1, 0] ei slices_S2x800000_S1x800000_1_0) shapeCasts_S1x800000_S800000)

/-- One round of aggregation as the kernel program spells it: the guarded fetch of the source rows, summed into the
    destination rows of an all-zero array, plus the features themselves. -/
def aggregate (h : FVec Ideal S50000x96 .f32) (ei : IVec S2x800000 32) : FVec Ideal S50000x96 .f32 :=
  addf (Host.scatterAdd scatter_S50000x96_S800000x1_S800000x96_1_0_0_1
      (broadcastInDim S50000x96 ![] bcast_S_S50000x96 (constant S_ .f32 0x00000000#32)) (dstCol ei)
      (guardedTake h (srcOf ei))) h

/-- Layer l's weight matrix, and its bias as a one-row array, out of the stacked parameters (l = 0, 1, 2). -/
def w_0 (W : FVec Ideal S3x96x96 .f32) : FVec Ideal S96x96 .f32 := shapeCast S96x96 (extractStridedSlice S1x96x96 ![0, 0, 0] W slices_S3x96x96_S1x96x96_0_0_0) shapeCasts_S1x96x96_S96x96
def w_1 (W : FVec Ideal S3x96x96 .f32) : FVec Ideal S96x96 .f32 := shapeCast S96x96 (extractStridedSlice S1x96x96 ![1, 0, 0] W slices_S3x96x96_S1x96x96_1_0_0) shapeCasts_S1x96x96_S96x96
def w_2 (W : FVec Ideal S3x96x96 .f32) : FVec Ideal S96x96 .f32 := shapeCast S96x96 (extractStridedSlice S1x96x96 ![2, 0, 0] W slices_S3x96x96_S1x96x96_2_0_0) shapeCasts_S1x96x96_S96x96
def brow_0 (B : FVec Ideal S3x96 .f32) : FVec Ideal S1x96 .f32 := shapeCast S1x96 (shapeCast S96 (extractStridedSlice S1x96 ![0, 0] B slices_S3x96_S1x96_0_0) shapeCasts_S1x96_S96) shapeCasts_S96_S1x96
def brow_1 (B : FVec Ideal S3x96 .f32) : FVec Ideal S1x96 .f32 := shapeCast S1x96 (shapeCast S96 (extractStridedSlice S1x96 ![1, 0] B slices_S3x96_S1x96_1_0) shapeCasts_S1x96_S96) shapeCasts_S96_S1x96
def brow_2 (B : FVec Ideal S3x96 .f32) : FVec Ideal S1x96 .f32 := shapeCast S1x96 (shapeCast S96 (extractStridedSlice S1x96 ![2, 0] B slices_S3x96_S1x96_2_0) shapeCasts_S1x96_S96) shapeCasts_S96_S1x96
/-- The classifier's bias as a one-row array. -/
def bcrow (b : FVec Ideal S10 .f32) : FVec Ideal S1x10 .f32 := shapeCast S1x10 b shapeCasts_S10_S1x10

/-- The destination row of the edge list: row 1 of the 2 × 800000 array, as a vector. -/
def dstOf (ei : IVec S2x800000 32) : IVec S800000 32 :=
  shapeCast S800000 (extractStridedSlice S1x800000 ![1, 0] ei slices_S2x800000_S1x800000_1_0) shapeCasts_S1x800000_S800000

/-! ## One stretch of host lines at a time, over any buffer contents

A stretch is read with the contents before it left arbitrary: its result buffers then hold the stretch's own
operations applied to those contents, and nothing else of the program is in sight. The fetch is a called function:
its operations carry each value at the value's own type and move it to and from the type recorded for its buffer,
two spellings of one type, so every such move is the identity. -/

section Stretches

variable (X : Valuation τ sig (Elt Ideal))

/-- Moving a value to an equal type and back is the identity. -/
theorem cast_round {A B : Type} (h1 : A = B) (h2 : B = A) (v : A) : cast h2 (cast h1 v) = v := by
  subst h1; rfl

/-- The guarded fetch before the first region: of the features in main_arg0 at the row numbers in main_v1. -/
theorem take0 : (StableHlo.after hostOps0_1 X (Proc.devRef .tc main_v4) : FVec Ideal S800000x96 .f32)
    = guardedTake (F := Ideal) (X (Proc.devRef .tc main_arg0) : FVec Ideal S50000x96 .f32)
        (X (Proc.devRef .tc main_v1) : IVec S800000 32) := by
  after_results_simp
  simp only [TRef.toBuf, TRef.ofBuf, cast_round]
  repeat erw [cast_eq]
  rw [guardedTake, keep, startCol]

/-- The guarded fetch before the second region: of the features in main_v19. -/
theorem take1 : (StableHlo.after hostOps1 X (Proc.devRef .tc main_v20) : FVec Ideal S800000x96 .f32)
    = guardedTake (F := Ideal) (X (Proc.devRef .tc main_v19) : FVec Ideal S50000x96 .f32)
        (X (Proc.devRef .tc main_v1) : IVec S800000 32) := by
  after_results_simp
  simp only [TRef.toBuf, TRef.ofBuf, cast_round]
  repeat erw [cast_eq]
  rw [guardedTake, keep, startCol]

/-- The guarded fetch before the third region: of the features in main_v35. -/
theorem take2 : (StableHlo.after hostOps2 X (Proc.devRef .tc main_v36) : FVec Ideal S800000x96 .f32)
    = guardedTake (F := Ideal) (X (Proc.devRef .tc main_v35) : FVec Ideal S50000x96 .f32)
        (X (Proc.devRef .tc main_v1) : IVec S800000 32) := by
  after_results_simp
  simp only [TRef.toBuf, TRef.ofBuf, cast_round]
  repeat erw [cast_eq]
  rw [guardedTake, keep, startCol]

/-- The sum before the first region: the fetched rows summed into the destination rows of an all-zero array, plus
    the features. -/
theorem sum0 : (StableHlo.after hostOps0_2 X (Proc.devRef .tc main_v8) : FVec Ideal S50000x96 .f32)
    = addf (F := Ideal) (Host.scatterAdd scatter_S50000x96_S800000x1_S800000x96_1_0_0_1
        (broadcastInDim S50000x96 ![] bcast_S_S50000x96 (constant (F := Ideal) S_ .f32 0x00000000#32))
        (broadcastInDim S800000x1 ![0] bcast_S800000_S800000x1_0 (X (Proc.devRef .tc main_v3) : IVec S800000 32))
        (X (Proc.devRef .tc main_v4) : FVec Ideal S800000x96 .f32))
      (X (Proc.devRef .tc main_arg0) : FVec Ideal S50000x96 .f32) := by
  after_results_simp <;> rfl

/-- The sum before the second region. -/
theorem sum1 : (StableHlo.after hostOps1_1 X (Proc.devRef .tc main_v24) : FVec Ideal S50000x96 .f32)
    = addf (F := Ideal) (Host.scatterAdd scatter_S50000x96_S800000x1_S800000x96_1_0_0_1
        (broadcastInDim S50000x96 ![] bcast_S_S50000x96 (constant (F := Ideal) S_ .f32 0x00000000#32))
        (broadcastInDim S800000x1 ![0] bcast_S800000_S800000x1_0 (X (Proc.devRef .tc main_v3) : IVec S800000 32))
        (X (Proc.devRef .tc main_v20) : FVec Ideal S800000x96 .f32))
      (X (Proc.devRef .tc main_v19) : FVec Ideal S50000x96 .f32) := by
  after_results_simp <;> rfl

/-- The sum before the third region. -/
theorem sum2 : (StableHlo.after hostOps2_1 X (Proc.devRef .tc main_v40) : FVec Ideal S50000x96 .f32)
    = addf (F := Ideal) (Host.scatterAdd scatter_S50000x96_S800000x1_S800000x96_1_0_0_1
        (broadcastInDim S50000x96 ![] bcast_S_S50000x96 (constant (F := Ideal) S_ .f32 0x00000000#32))
        (broadcastInDim S800000x1 ![0] bcast_S800000_S800000x1_0 (X (Proc.devRef .tc main_v3) : IVec S800000 32))
        (X (Proc.devRef .tc main_v36) : FVec Ideal S800000x96 .f32))
      (X (Proc.devRef .tc main_v35) : FVec Ideal S50000x96 .f32) := by
  after_results_simp <;> rfl

end Stretches

variable (m : (ℓ : Loc nD τ sig) → Buf (Elt Ideal) ℓ) (ρ : Dev nD → PrngReg)

/-! ## A buffer's contents walked back to the launch

A buffer that a stretch of host lines does not write holds after the stretch what it held before, and so does a
buffer that is no window array of a region across that region. Walking back stretch by stretch and region by region,
a buffer written once and for all before the first region (the two rows of the edge list), or never (an argument),
is read off the launch contents; a region's own result is where the walk stops. -/

/-- Across the first region a buffer that is none of its window arrays keeps its contents. -/
theorem W4_skip (c : Dev nD) (b : Ref sig .tc) (hb : ∀ w, Pipeline.arrRef spec0 w ≠ b) :
    W4 m ρ c (no_index (Proc.devRef .tc b)) = W3 m ρ c (Proc.devRef .tc b) := W4_of_ne m ρ c b hb

/-- Across the second region likewise. -/
theorem W7_skip (c : Dev nD) (b : Ref sig .tc) (hb : ∀ w, Pipeline.arrRef spec1 w ≠ b) :
    W7 m ρ c (no_index (Proc.devRef .tc b)) = W6 m ρ c (Proc.devRef .tc b) := W7_of_ne m ρ c b hb

/-- The walk itself: an operation's result buffer holds its function of the contents before it at its operands, any
    other buffer holds what it held before the operation, and a region changes its window arrays only; so the contents
    of a buffer are read back as far as the launch contents or a region's own result. -/
local macro "host_lines" : tactic => `(tactic|
  simp (disch := decide) only [V3, V6, V9, W1, W2, W3, W5, W6, W8, W9, W4_skip, W7_skip, after_cons, after_nil,
    nullary_result', unary_result', binary_result', ternary_result', reshape_result',
    nullary_result_ne', unary_result_ne', binary_result_ne', ternary_result_ne', reshape_result_ne'])

/-! ### The two rows of the edge list, wherever a stretch reads them -/

theorem W1_v1 (c : Dev nD) :
    W1 m ρ c (Proc.devRef .tc main_v1) = srcOf (m ((c.tc : Thread nD τ).loc main_arg1)) := by
  host_lines <;> rfl
theorem W4_v1 (c : Dev nD) :
    W4 m ρ c (Proc.devRef .tc main_v1) = srcOf (m ((c.tc : Thread nD τ).loc main_arg1)) := by
  host_lines <;> rfl
theorem W7_v1 (c : Dev nD) :
    W7 m ρ c (Proc.devRef .tc main_v1) = srcOf (m ((c.tc : Thread nD τ).loc main_arg1)) := by
  host_lines <;> rfl
theorem W2_v3 (c : Dev nD) :
    W2 m ρ c (Proc.devRef .tc main_v3) = dstOf (m ((c.tc : Thread nD τ).loc main_arg1)) := by
  host_lines <;> rfl
theorem W5_v3 (c : Dev nD) :
    W5 m ρ c (Proc.devRef .tc main_v3) = dstOf (m ((c.tc : Thread nD τ).loc main_arg1)) := by
  host_lines <;> rfl
theorem W8_v3 (c : Dev nD) :
    W8 m ρ c (Proc.devRef .tc main_v3) = dstOf (m ((c.tc : Thread nD τ).loc main_arg1)) := by
  host_lines <;> rfl

/-! ### The features each round aggregates -/

theorem W1_arg0 (c : Dev nD) : W1 m ρ c (Proc.devRef .tc main_arg0) = m ((c.tc : Thread nD τ).loc main_arg0) := by
  host_lines <;> rfl
theorem W2_arg0 (c : Dev nD) : W2 m ρ c (Proc.devRef .tc main_arg0) = m ((c.tc : Thread nD τ).loc main_arg0) := by
  host_lines <;> rfl
theorem W5_v19 (c : Dev nD) : W5 m ρ c (Proc.devRef .tc main_v19) = V4 m ρ c main_v19 := by
  host_lines <;> rfl
theorem W8_v35 (c : Dev nD) : W8 m ρ c (Proc.devRef .tc main_v35) = V7 m ρ c main_v35 := by
  host_lines <;> rfl

/-! ### The guarded fetch of each round -/

theorem W2_v4 (c : Dev nD) : W2 m ρ c (Proc.devRef .tc main_v4)
    = guardedTake (F := Ideal) (m ((c.tc : Thread nD τ).loc main_arg0)) (srcOf (m ((c.tc : Thread nD τ).loc main_arg1))) := by
  show StableHlo.after hostOps0_1 (W1 m ρ c) (Proc.devRef .tc main_v4) = _
  rw [take0 (W1 m ρ c), W1_arg0 m ρ c, W1_v1 m ρ c]
theorem W5_v20 (c : Dev nD) : W5 m ρ c (Proc.devRef .tc main_v20)
    = guardedTake (F := Ideal) (V4 m ρ c main_v19) (srcOf (m ((c.tc : Thread nD τ).loc main_arg1))) := by
  show StableHlo.after hostOps1 (W4 m ρ c) (Proc.devRef .tc main_v20) = _
  rw [take1 (W4 m ρ c), W4_v1 m ρ c]
theorem W8_v36 (c : Dev nD) : W8 m ρ c (Proc.devRef .tc main_v36)
    = guardedTake (F := Ideal) (V7 m ρ c main_v35) (srcOf (m ((c.tc : Thread nD τ).loc main_arg1))) := by
  show StableHlo.after hostOps2 (W7 m ρ c) (Proc.devRef .tc main_v36) = _
  rw [take2 (W7 m ρ c), W7_v1 m ρ c]

/-! ## On entry to the first region (buffer contents V3) -/

theorem entry0_agg (c : Dev nD) :
    V3 m ρ c main_v8 = aggregate (m ((c.tc : Thread nD τ).loc main_arg0)) (m ((c.tc : Thread nD τ).loc main_arg1)) := by
  show StableHlo.after hostOps0_2 (W2 m ρ c) (Proc.devRef .tc main_v8) = _
  rw [sum0 (W2 m ρ c), W2_v3 m ρ c, W2_v4 m ρ c, W2_arg0 m ρ c]
  rfl
theorem entry0_w1 (c : Dev nD) : V3 m ρ c main_v10 = w_0 (m ((c.tc : Thread nD τ).loc main_arg2)) := by
  host_lines <;> rfl
theorem entry0_b1 (c : Dev nD) : V3 m ρ c main_v17 = brow_0 (m ((c.tc : Thread nD τ).loc main_arg3)) := by
  host_lines <;> rfl
theorem entry0_w2 (c : Dev nD) : V3 m ρ c main_v14 = w_0 (m ((c.tc : Thread nD τ).loc main_arg4)) := by
  host_lines <;> rfl
theorem entry0_b2 (c : Dev nD) : V3 m ρ c main_v18 = brow_0 (m ((c.tc : Thread nD τ).loc main_arg5)) := by
  host_lines <;> rfl

/-! ## On entry to the second region (V6), from the first region's exit contents (V4) -/

theorem entry1_agg (c : Dev nD) :
    V6 m ρ c main_v24 = aggregate (V4 m ρ c main_v19) (m ((c.tc : Thread nD τ).loc main_arg1)) := by
  show StableHlo.after hostOps1_1 (W5 m ρ c) (Proc.devRef .tc main_v24) = _
  rw [sum1 (W5 m ρ c), W5_v3 m ρ c, W5_v20 m ρ c, W5_v19 m ρ c]
  rfl
theorem entry1_w1 (c : Dev nD) : V6 m ρ c main_v26 = w_1 (m ((c.tc : Thread nD τ).loc main_arg2)) := by
  host_lines <;> rfl
theorem entry1_b1 (c : Dev nD) : V6 m ρ c main_v33 = brow_1 (m ((c.tc : Thread nD τ).loc main_arg3)) := by
  host_lines <;> rfl
theorem entry1_w2 (c : Dev nD) : V6 m ρ c main_v30 = w_1 (m ((c.tc : Thread nD τ).loc main_arg4)) := by
  host_lines <;> rfl
theorem entry1_b2 (c : Dev nD) : V6 m ρ c main_v34 = brow_1 (m ((c.tc : Thread nD τ).loc main_arg5)) := by
  host_lines <;> rfl

/-! ## On entry to the third region (V9), from the second region's exit contents (V7) -/

theorem entry2_agg (c : Dev nD) :
    V9 m ρ c main_v40 = aggregate (V7 m ρ c main_v35) (m ((c.tc : Thread nD τ).loc main_arg1)) := by
  show StableHlo.after hostOps2_1 (W8 m ρ c) (Proc.devRef .tc main_v40) = _
  rw [sum2 (W8 m ρ c), W8_v3 m ρ c, W8_v36 m ρ c, W8_v35 m ρ c]
  rfl
theorem entry2_w1 (c : Dev nD) : V9 m ρ c main_v42 = w_2 (m ((c.tc : Thread nD τ).loc main_arg2)) := by
  host_lines <;> rfl
theorem entry2_b1 (c : Dev nD) : V9 m ρ c main_v49 = brow_2 (m ((c.tc : Thread nD τ).loc main_arg3)) := by
  host_lines <;> rfl
theorem entry2_w2 (c : Dev nD) : V9 m ρ c main_v46 = w_2 (m ((c.tc : Thread nD τ).loc main_arg4)) := by
  host_lines <;> rfl
theorem entry2_b2 (c : Dev nD) : V9 m ρ c main_v50 = brow_2 (m ((c.tc : Thread nD τ).loc main_arg5)) := by
  host_lines <;> rfl
theorem entry2_wc (c : Dev nD) : V9 m ρ c main_arg6 = m ((c.tc : Thread nD τ).loc main_arg6) := by
  host_lines <;> rfl
theorem entry2_bc (c : Dev nD) : V9 m ρ c main_v51 = bcrow (m ((c.tc : Thread nD τ).loc main_arg7)) := by
  host_lines <;> rfl

end Cert.KernelIdeal.HostLines

end
-- ==== Proof.RefValue.lean ====
/-
  The reference's result as a function of its arguments: three rounds of neighbourhood aggregation (a node's own
  features plus the sum of its in-neighbours' features) each followed by a two-layer perceptron with ReLU, then one
  affine classifier. The aggregation is kept as the program spells it (a fetch of the source rows and a
  scatter-add to the destination rows); the perceptron and the classifier are read entry by entry.
-/
import proofs.«427185_j55568286876150_3_alg».proof.Proof.Gen.ReferenceIdeal.Run
import proofs.«427185_j55568286876150_3_alg».proof.Proof.Perceptron
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.ReferenceIdeal.RefValue

open Idealize.ShloMosaic Idealize.ShloMosaic.ValueIdx Idealize.SL.Sem Cert.ReferenceIdeal Cert.ReferenceIdeal.Gen
  Cert.ReferenceIdeal.Value Cert.Gin

/-- The source-node numbers, normalised as numpy does, as a column of start indices. -/
def srcCol (ei : IVec S2x800000 32) : IVec S800000x1 32 :=
  broadcastInDim S800000x1 ![0] bcast_S800000_S800000x1_0
    (select
      (cmpi .slt (shapeCast S800000 (extractStridedSlice S1x800000 ![0, 0] ei slices_S2x800000_S1x800000_0_0) shapeCasts_S1x800000_S800000)
        (broadcastInDim S800000 ![] bcast_S_S800000 (constantI S_ 32 0#32)))
      (addi (shapeCast S800000 (extractStridedSlice S1x800000 ![0, 0] ei slices_S2x800000_S1x800000_0_0) shapeCasts_S1x800000_S800000)
        (broadcastInDim S800000 ![] bcast_S_S800000 (constantI S_ 32 50000#32)))
      (shapeCast S800000 (extractStridedSlice S1x800000 ![0, 0] ei slices_S2x800000_S1x800000_0_0) shapeCasts_S1x800000_S800000))

/-- The destination-node numbers as a column of scatter indices. -/
def dstCol (ei : IVec S2x800000 32) : IVec S800000x1 32 :=
  broadcastInDim S800000x1 ![0] bcast_S800000_S800000x1_0
    (shapeCast S800000 (extractStridedSlice S1x800000 ![1, 0] ei slices_S2x800000_S1x800000_1_0) shapeCasts_S1x800000_S800000)

/-- One round of aggregation: every node's features plus the sum of the features fetched along its incoming edges. -/
def aggregate (h : FVec Ideal S50000x96 .f32) (ei : IVec S2x800000 32) : FVec Ideal S50000x96 .f32 :=
  addf (Host.scatterAdd scatter_S50000x96_S800000x1_S800000x96_1_0_0_1
      (broadcastInDim S50000x96 ![] bcast_S_S50000x96 (constant S_ .f32 0x00000000#32)) (dstCol ei)
      (Host.gather gather_S50000x96_S800000x1_S800000x96_1_0_n_n_0_1_196 h (srcCol ei))) h

/-- One hidden layer as the program spells it: a product, a bias broadcast along the rows, a maximum with zero. -/
def hiddenHost (a : FVec Ideal S50000x96 .f32) (w : FVec Ideal S96x96 .f32) (b : FVec Ideal S96 .f32) :
    FVec Ideal S50000x96 .f32 :=
  maximumf (addf (Host.dotGeneral dot_S50000x96_S96x96_S50000x96_1_0_0_1_n_n none a w)
      (broadcastInDim S50000x96 ![0, 1] bcast_S1x96_S50000x96_0_1 (broadcastInDim S1x96 ![1] bcast_S96_S1x96_1 b)))
    (broadcastInDim S50000x96 ![] bcast_S_S50000x96 (constant S_ .f32 0x00000000#32))

/-- The classifier as the program spells it. -/
def classifyHost (h : FVec Ideal S50000x96 .f32) (w : FVec Ideal S96x10 .f32) (b : FVec Ideal S10 .f32) :
    FVec Ideal S50000x10 .f32 :=
  addf (Host.dotGeneral dot_S50000x96_S96x10_S50000x10_1_0_0_1_n_n none h w)
    (broadcastInDim S50000x10 ![0, 1] bcast_S1x10_S50000x10_0_1 (broadcastInDim S1x10 ![1] bcast_S10_S1x10_1 b))

/-- Layer l's weight matrix and bias vector out of the stacked parameters (l = 0, 1, 2). -/
def w_0 (W : FVec Ideal S3x96x96 .f32) : FVec Ideal S96x96 .f32 := shapeCast S96x96 (extractStridedSlice S1x96x96 ![0, 0, 0] W slices_S3x96x96_S1x96x96_0_0_0) shapeCasts_S1x96x96_S96x96
def w_1 (W : FVec Ideal S3x96x96 .f32) : FVec Ideal S96x96 .f32 := shapeCast S96x96 (extractStridedSlice S1x96x96 ![1, 0, 0] W slices_S3x96x96_S1x96x96_1_0_0) shapeCasts_S1x96x96_S96x96
def w_2 (W : FVec Ideal S3x96x96 .f32) : FVec Ideal S96x96 .f32 := shapeCast S96x96 (extractStridedSlice S1x96x96 ![2, 0, 0] W slices_S3x96x96_S1x96x96_2_0_0) shapeCasts_S1x96x96_S96x96
def b_0 (B : FVec Ideal S3x96 .f32) : FVec Ideal S96 .f32 := shapeCast S96 (extractStridedSlice S1x96 ![0, 0] B slices_S3x96_S1x96_0_0) shapeCasts_S1x96_S96
def b_1 (B : FVec Ideal S3x96 .f32) : FVec Ideal S96 .f32 := shapeCast S96 (extractStridedSlice S1x96 ![1, 0] B slices_S3x96_S1x96_1_0) shapeCasts_S1x96_S96
def b_2 (B : FVec Ideal S3x96 .f32) : FVec Ideal S96 .f32 := shapeCast S96 (extractStridedSlice S1x96 ![2, 0] B slices_S3x96_S1x96_2_0) shapeCasts_S1x96_S96

/-- The whole network in the program's spelling. -/
def network (x : FVec Ideal S50000x96 .f32) (ei : IVec S2x800000 32) (W1 : FVec Ideal S3x96x96 .f32)
    (B1 : FVec Ideal S3x96 .f32) (W2 : FVec Ideal S3x96x96 .f32) (B2 : FVec Ideal S3x96 .f32)
    (Wc : FVec Ideal S96x10 .f32) (Bc : FVec Ideal S10 .f32) : FVec Ideal S50000x10 .f32 :=
  classifyHost
    (hiddenHost (hiddenHost (aggregate
      (hiddenHost (hiddenHost (aggregate
        (hiddenHost (hiddenHost (aggregate x ei) (w_0 W1) (b_0 B1)) (w_0 W2) (b_0 B2)) ei)
        (w_1 W1) (b_1 B1)) (w_1 W2) (b_1 B2)) ei)
      (w_2 W1) (b_2 B1)) (w_2 W2) (b_2 B2))
    Wc Bc

/-- The run's result term is the network of the arguments. -/
theorem res_eq (m : (ℓ : Loc nD τ sig) → Buf (Elt Ideal) ℓ) (c : Dev nD) :
    res_out0 (F := Ideal) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold res_out0 res_main_v100 network classifyHost hiddenHost aggregate srcCol dstCol w_0 w_1 w_2 b_0 b_1 b_2
  rfl

/-- A vector read entry by entry. -/
def vecOf {N : Nat} (b : (⟨1, ![N]⟩ : Shape).Idx → EReal) : Fin N → EReal := fun k => b (ix1 k)

/-- A vector laid out as a one-row array and then repeated along M rows reads, at entry (p, q), the vector's
    entry q: each of the two broadcasts keeps the column coordinate, the first adds a unit row coordinate and the
    second forgets the row. -/
theorem bias_apply {M N : Nat} (b : (⟨1, ![N]⟩ : Shape).Idx → EReal)
    (h₁ : (⟨1, ![N]⟩ : Shape).BroadcastsInDim ⟨2, ![1, N]⟩ ![1])
    (h₂ : (⟨2, ![1, N]⟩ : Shape).BroadcastsInDim ⟨2, ![M, N]⟩ ![0, 1]) (p : Fin M) (q : Fin N) :
    broadcastInDim ⟨2, ![M, N]⟩ ![0, 1] h₂ (broadcastInDim ⟨2, ![1, N]⟩ ![1] h₁ b) (ix2 p q) = vecOf b q := by
  refine (StableHlo.Predicate.bcast_of_row h₂ _ p q).trans ?_
  refine (StableHlo.Predicate.bcast_row1 h₁ b q).trans ?_
  exact congrArg b (Shape.Idx.eq_ofFin (ix1 q)).symm

/-- The scalar constant zero repeated over a whole array reads 0 at every entry. -/
theorem zeros_apply {t : Shape} (h : (⟨0, ![]⟩ : Shape).BroadcastsInDim t ![]) (j : t.Idx) :
    broadcastInDim t ![] h (constant (F := Ideal) ⟨0, ![]⟩ .f32 0x00000000#32) j = 0 :=
  Ideal.ofBits_zero_f32

/-- The program's hidden layer is relu (a · w + b). -/
theorem hiddenHost_eq (a : FVec Ideal S50000x96 .f32) (w : FVec Ideal S96x96 .f32) (b : FVec Ideal S96 .f32) :
    hiddenHost a w b = hidden (M := 50000) a w (vecOf b) := by
  funext j
  obtain ⟨p, q, rfl⟩ : ∃ (p : Fin 50000) (q : Fin 96), j = ix2 p q := ⟨j 0, j 1, eq_ix2 j⟩
  rw [hidden_apply]
  unfold hiddenHost
  rw [maximumf_apply, addf_apply,
    Cert.Lib.dotGeneral_eq_dense dot_S50000x96_S96x96_S50000x96_1_0_0_1_n_n rfl rfl rfl rfl rfl rfl none a w,
    bias_apply, zeros_apply]

/-- The program's classifier is h · w + b. -/
theorem classifyHost_eq (h : FVec Ideal S50000x96 .f32) (w : FVec Ideal S96x10 .f32) (b : FVec Ideal S10 .f32) :
    classifyHost h w b = logits (M := 50000) h w (vecOf b) := by
  funext j
  obtain ⟨p, q, rfl⟩ : ∃ (p : Fin 50000) (q : Fin 10), j = ix2 p q := ⟨j 0, j 1, eq_ix2 j⟩
  rw [logits_apply]
  unfold classifyHost
  rw [addf_apply,
    Cert.Lib.dotGeneral_eq_dense dot_S50000x96_S96x10_S50000x10_1_0_0_1_n_n rfl rfl rfl rfl rfl rfl none h w,
    bias_apply]

end Cert.ReferenceIdeal.RefValue

end
-- ==== Proof.Bridge.lean ====
/-
  The two programs spell the same network in slightly different words; here each difference is closed. The kernel
  program guards its fetch of the source rows and the reference does not: with every source-node number in range the
  guard keeps every row, so the two aggregations are one function. The kernel program passes each bias to its kernels
  as a one-row array and the reference adds it as a vector: the row of the one is the other. The weight matrices are
  cut out of the stacked parameters the same way on both sides.
-/
import proofs.«427185_j55568286876150_3_alg».proof.Proof.KernelHost
import proofs.«427185_j55568286876150_3_alg».proof.Proof.RefValue
import proofs.«427185_j55568286876150_3_alg».proof.Proof.Payload
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx

/-- In range, the kernel program's aggregation is the reference's. -/
theorem aggregate_eq (h : FVec Ideal Cert.KernelIdeal.S50000x96 .f32) (ei : IVec Cert.KernelIdeal.S2x800000 32)
    (hs : Cert.KernelIdeal.Take.InRange (Cert.KernelIdeal.Take.srcOf ei)) :
    Cert.KernelIdeal.HostLines.aggregate h ei = Cert.ReferenceIdeal.RefValue.aggregate h ei := by
  -- the two programs' dimension records have the same fields
  have hg : Cert.KernelIdeal.gather_S50000x96_S800000x1_S800000x96_1_0_n_n_0_1_196 = Cert.ReferenceIdeal.gather_S50000x96_S800000x1_S800000x96_1_0_n_n_0_1_196 := rfl
  have hsc : Cert.KernelIdeal.scatter_S50000x96_S800000x1_S800000x96_1_0_0_1 = Cert.ReferenceIdeal.scatter_S50000x96_S800000x1_S800000x96_1_0_0_1 := rfl
  -- the two programs' index columns are the same terms: the normalised sources, the destinations
  have hsrc : Cert.KernelIdeal.Take.startCol (Cert.KernelIdeal.Take.srcOf ei) = Cert.ReferenceIdeal.RefValue.srcCol ei := by
    unfold Cert.KernelIdeal.Take.startCol Cert.KernelIdeal.Take.srcOf Cert.ReferenceIdeal.RefValue.srcCol
    rfl
  have hdst : Cert.KernelIdeal.HostLines.dstCol ei = Cert.ReferenceIdeal.RefValue.dstCol ei := by
    unfold Cert.KernelIdeal.HostLines.dstCol Cert.ReferenceIdeal.RefValue.dstCol
    rfl
  unfold Cert.KernelIdeal.HostLines.aggregate
  rw [Cert.KernelIdeal.Take.guardedTake_eq h (Cert.KernelIdeal.Take.srcOf ei) hs]
  unfold Cert.ReferenceIdeal.RefValue.aggregate
  rw [hg, hsc, hsrc, hdst]

/-- The weight matrices are cut out alike. -/
theorem w_0_eq (W : FVec Ideal Cert.KernelIdeal.S3x96x96 .f32) :
    Cert.KernelIdeal.HostLines.w_0 W = Cert.ReferenceIdeal.RefValue.w_0 W := by
  unfold Cert.KernelIdeal.HostLines.w_0 Cert.ReferenceIdeal.RefValue.w_0
  rfl
theorem w_1_eq (W : FVec Ideal Cert.KernelIdeal.S3x96x96 .f32) :
    Cert.KernelIdeal.HostLines.w_1 W = Cert.ReferenceIdeal.RefValue.w_1 W := by
  unfold Cert.KernelIdeal.HostLines.w_1 Cert.ReferenceIdeal.RefValue.w_1
  rfl
theorem w_2_eq (W : FVec Ideal Cert.KernelIdeal.S3x96x96 .f32) :
    Cert.KernelIdeal.HostLines.w_2 W = Cert.ReferenceIdeal.RefValue.w_2 W := by
  unfold Cert.KernelIdeal.HostLines.w_2 Cert.ReferenceIdeal.RefValue.w_2
  rfl

/-- The row of a bias passed as a one-row array is the bias vector. -/
theorem brow_0_eq (B : FVec Ideal Cert.KernelIdeal.S3x96 .f32) :
    Cert.KernelIdeal.Payload.rowOf (Cert.KernelIdeal.HostLines.brow_0 B)
      = Cert.ReferenceIdeal.RefValue.vecOf (Cert.ReferenceIdeal.RefValue.b_0 B) := by
  funext k
  unfold Cert.KernelIdeal.Payload.rowOf Cert.ReferenceIdeal.RefValue.vecOf Cert.KernelIdeal.HostLines.brow_0
    Cert.ReferenceIdeal.RefValue.b_0
  refine (shapeCast_a_1a_apply _ _ 0 k).trans ?_
  rfl
theorem brow_1_eq (B : FVec Ideal Cert.KernelIdeal.S3x96 .f32) :
    Cert.KernelIdeal.Payload.rowOf (Cert.KernelIdeal.HostLines.brow_1 B)
      = Cert.ReferenceIdeal.RefValue.vecOf (Cert.ReferenceIdeal.RefValue.b_1 B) := by
  funext k
  unfold Cert.KernelIdeal.Payload.rowOf Cert.ReferenceIdeal.RefValue.vecOf Cert.KernelIdeal.HostLines.brow_1
    Cert.ReferenceIdeal.RefValue.b_1
  refine (shapeCast_a_1a_apply _ _ 0 k).trans ?_
  rfl
theorem brow_2_eq (B : FVec Ideal Cert.KernelIdeal.S3x96 .f32) :
    Cert.KernelIdeal.Payload.rowOf (Cert.KernelIdeal.HostLines.brow_2 B)
      = Cert.ReferenceIdeal.RefValue.vecOf (Cert.ReferenceIdeal.RefValue.b_2 B) := by
  funext k
  unfold Cert.KernelIdeal.Payload.rowOf Cert.ReferenceIdeal.RefValue.vecOf Cert.KernelIdeal.HostLines.brow_2
    Cert.ReferenceIdeal.RefValue.b_2
  refine (shapeCast_a_1a_apply _ _ 0 k).trans ?_
  rfl
theorem bcrow_eq (b : FVec Ideal Cert.KernelIdeal.S10 .f32) :
    Cert.KernelIdeal.Payload.rowOf (Cert.KernelIdeal.HostLines.bcrow b) = Cert.ReferenceIdeal.RefValue.vecOf b := by
  funext k
  unfold Cert.KernelIdeal.Payload.rowOf Cert.ReferenceIdeal.RefValue.vecOf Cert.KernelIdeal.HostLines.bcrow
  exact shapeCast_a_1a_apply _ _ 0 k

end Cert.Bridge

end
-- ==== Proof.KernelValue.lean ====
/-
  The kernel program's result array as a function of its arguments, and that it is the reference's network.
  Walking back from the last region's exit: the result is the classifier of the third perceptron of the third
  aggregation of the second region's output, which is the second perceptron of the second aggregation of the first
  region's output, which is the first perceptron of the first aggregation of the input features. Under the
  precondition every source-node number is in range, so each guarded aggregation is the reference's; the one-row
  biases are the reference's bias vectors; and a perceptron is two hidden layers, which is how the reference spells it.
-/
import proofs.«427185_j55568286876150_3_alg».proof.Proof.KernelRun
import proofs.«427185_j55568286876150_3_alg».proof.Proof.Region0
import proofs.«427185_j55568286876150_3_alg».proof.Proof.Region1
import proofs.«427185_j55568286876150_3_alg».proof.Proof.Region2
import proofs.«427185_j55568286876150_3_alg».proof.Proof.KernelHost
import proofs.«427185_j55568286876150_3_alg».proof.Proof.SrcRange
import proofs.«427185_j55568286876150_3_alg».proof.Proof.Bridge
import proofs.«427185_j55568286876150_3_alg».proof.Proof.RefValue

set_option maxRecDepth 16384

noncomputable section

namespace Cert.KernelIdeal.KValue

open Idealize.ShloMosaic Idealize.ShloMosaic.TcCoe Idealize.SL.Sem
open Cert.KernelIdeal Cert.KernelIdeal.Gen Cert.KernelIdeal.HostLines Cert.KernelIdeal.Payload Cert.Gin

variable (m : (ℓ : Loc nD τ sig) → Buf (Elt Ideal) ℓ) (ρ : Dev nD → PrngReg)

/-- The first region's output: the perceptron of the first aggregation. -/
theorem out0_eq (c : Dev nD) :
    V4 m ρ c main_v19
      = mlp (M := 50000) (aggregate (m ((c.tc : Thread nD τ).loc main_arg0)) (m ((c.tc : Thread nD τ).loc main_arg1)))
          (w_0 (m ((c.tc : Thread nD τ).loc main_arg2))) (rowOf (brow_0 (m ((c.tc : Thread nD τ).loc main_arg3))))
          (w_0 (m ((c.tc : Thread nD τ).loc main_arg4))) (rowOf (brow_0 (m ((c.tc : Thread nD τ).loc main_arg5)))) := by
  refine (W4_arr m ρ c 5).trans ?_
  rw [Region0.final (V3 m ρ) c, entry0_agg, entry0_w1, entry0_b1, entry0_w2, entry0_b2]

/-- The second region's output: the perceptron of the aggregation of the first region's output. -/
theorem out1_eq (c : Dev nD) :
    V7 m ρ c main_v35
      = mlp (M := 50000) (aggregate (V4 m ρ c main_v19) (m ((c.tc : Thread nD τ).loc main_arg1)))
          (w_1 (m ((c.tc : Thread nD τ).loc main_arg2))) (rowOf (brow_1 (m ((c.tc : Thread nD τ).loc main_arg3))))
          (w_1 (m ((c.tc : Thread nD τ).loc main_arg4))) (rowOf (brow_1 (m ((c.tc : Thread nD τ).loc main_arg5)))) := by
  refine (W7_arr m ρ c 5).trans ?_
  rw [Region1.final (V6 m ρ) c, entry1_agg, entry1_w1, entry1_b1, entry1_w2, entry1_b2]

/-- The result array: the classifier of the perceptron of the aggregation of the second region's output. -/
theorem out2_eq (c : Dev nD) :
    W10 m ρ c (Proc.devRef .tc main_v52)
      = logits (M := 50000)
          (mlp (M := 50000) (aggregate (V7 m ρ c main_v35) (m ((c.tc : Thread nD τ).loc main_arg1)))
            (w_2 (m ((c.tc : Thread nD τ).loc main_arg2))) (rowOf (brow_2 (m ((c.tc : Thread nD τ).loc main_arg3))))
            (w_2 (m ((c.tc : Thread nD τ).loc main_arg4))) (rowOf (brow_2 (m ((c.tc : Thread nD τ).loc main_arg5)))))
          (m ((c.tc : Thread nD τ).loc main_arg6)) (rowOf (bcrow (m ((c.tc : Thread nD τ).loc main_arg7)))) := by
  refine (W10_arr m ρ c 7).trans ?_
  rw [Region2.final (V9 m ρ) c, entry2_agg, entry2_w1, entry2_b1, entry2_w2, entry2_b2, entry2_wc, entry2_bc]

/-- THE RESULT is the reference's network of the arguments, when every source-node number is in range. -/
theorem result_eq (c : Dev nD)
    (hpre : Cert.Pre_KernelIdeal (hPre_finite_inputs := Cert.Pre_finite_inputs.Gen.facts) m) :
    W10 m ρ c (Proc.devRef .tc main_v52)
      = Cert.ReferenceIdeal.RefValue.network (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) := by
  have hs := Take.inRange_of_pre m hpre c
  rw [out2_eq, out1_eq, out0_eq]
  rw [Cert.Bridge.aggregate_eq _ _ hs, Cert.Bridge.aggregate_eq _ _ hs, Cert.Bridge.aggregate_eq _ _ hs,
    Cert.Bridge.w_0_eq, Cert.Bridge.w_0_eq, Cert.Bridge.w_1_eq, Cert.Bridge.w_1_eq, Cert.Bridge.w_2_eq, Cert.Bridge.w_2_eq,
    Cert.Bridge.brow_0_eq, Cert.Bridge.brow_0_eq, Cert.Bridge.brow_1_eq, Cert.Bridge.brow_1_eq,
    Cert.Bridge.brow_2_eq, Cert.Bridge.brow_2_eq, Cert.Bridge.bcrow_eq]
  unfold Cert.ReferenceIdeal.RefValue.network
  rw [Cert.ReferenceIdeal.RefValue.classifyHost_eq]
  simp only [Cert.ReferenceIdeal.RefValue.hiddenHost_eq]
  rfl

end Cert.KernelIdeal.KValue

end
-- ==== Proof.lean ====
/-
  A three-round graph convolution (every node's features plus the sum of its in-neighbours' features, then a two-layer
  perceptron with ReLU) followed by an affine classifier, computed two ways. The kernel program does each round's
  aggregation on the host and its perceptron in a pipelined kernel over 25 blocks of 2000 nodes, the last kernel
  applying the classifier as well; the reference does everything on the host. Over the extended reals the two agree
  entry by entry whenever every source-node number of the edge list names a row of the node table (directly, or
  counted from the end as a negative number): a kernel block's rows of the perceptron are those rows of the perceptron
  of the whole array, a product accumulated from zero is the host's product, a bias passed as a one-row array is the
  bias vector, and with the source numbers in range the kernel program's guarded fetch keeps every row, so its
  aggregation is the reference's. No law of the extended reals beyond reading both sides as the same sums is used, and
  the finiteness of the float inputs is not.
-/
import proofs.«427185_j55568286876150_3_alg».proof.Defs
import proofs.«427185_j55568286876150_3_alg».proof.Proof.Gen.Kernel
import proofs.«427185_j55568286876150_3_alg».proof.Proof.Gen.Kernel.Frame
import proofs.«427185_j55568286876150_3_alg».proof.Proof.Gen.KernelIdeal
import proofs.«427185_j55568286876150_3_alg».proof.Proof.Gen.KernelIdeal.Frame
import proofs.«427185_j55568286876150_3_alg».proof.Proof.Gen.ReferenceIdeal
import proofs.«427185_j55568286876150_3_alg».proof.Proof.Gen.ReferenceIdeal.Run
import proofs.«427185_j55568286876150_3_alg».proof.Proof.Gen.Pre_finite_inputs
import proofs.«427185_j55568286876150_3_alg».proof.Proof.KernelRun
import proofs.«427185_j55568286876150_3_alg».proof.Proof.KernelValue
import proofs.«427185_j55568286876150_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_p : Cert.frame_Kernel (hKernel := Cert.Kernel.Gen.facts) (hPre_finite_inputs := Cert.Pre_finite_inputs.Gen.facts) :=
  fun m ρ _ => Cert.Kernel.Gen.frame m ρ

/-- So does the idealised kernel program. -/
theorem frame_pi : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the reference's network of the (shared) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.RefValue.network
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KValue.result_eq m ρ c hpre), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    refine (Cert.ReferenceIdeal.RefValue.res_eq m' c).trans ?_
    dsimp only
    rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
